-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S20000x128 .f32) (main_arg1 : IVec S2x640000 32) (main_arg2 : FVec F S128x128 .f32) (main_arg3 : FVec F S128 .f32) (main_arg4 : FVec F S128x64 .f32) (main_arg5 : FVec F S64 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S20000x128 : Shape := ⟨2, ![20000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x640000 : Shape := ⟨2, ![1, 640000]⟩
abbrev S640000 : Shape := ⟨1, ![640000]⟩
abbrev S2000x128 : Shape := ⟨2, ![2000, 128]⟩
abbrev S_ : Shape := ⟨0, ![]⟩
abbrev S20000 : Shape := ⟨1, ![20000]⟩
abbrev S640000x1 : Shape := ⟨2, ![640000, 1]⟩
abbrev S640000x128 : Shape := ⟨2, ![640000, 128]⟩
abbrev S20000x1 : Shape := ⟨2, ![20000, 1]⟩
abbrev S1x128 : Shape := ⟨2, ![1, 128]⟩
abbrev S2000x1 : Shape := ⟨2, ![2000, 1]⟩
abbrev S20000x64 : Shape := ⟨2, ![20000, 64]⟩
abbrev S2000x64 : Shape := ⟨2, ![2000, 64]⟩
abbrev S640000x64 : Shape := ⟨2, ![640000, 64]⟩
abbrev S1x64 : Shape := ⟨2, ![1, 64]⟩

abbrev nBuf : Space → Nat
  | .hbm => 110
  | .vmem => 28
  | .smem => 0
  | _ => 0

abbrev bufTy : (tb : Table) → Fin (tcTables nBuf tb) → BufTy
  | .hbm, ⟨0, _⟩ => ⟨S20000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x640000, .i32⟩
  | .hbm, ⟨7, _⟩ => ⟨S640000, .i32⟩
  | .hbm, ⟨8, _⟩ => ⟨S1x640000, .i32⟩
  | .hbm, ⟨9, _⟩ => ⟨S640000, .i32⟩
  | .hbm, ⟨10, _⟩ => ⟨S20000x128, .f32⟩
  | .hbm, ⟨11, _⟩ => ⟨S_, .f32⟩
  | .hbm, ⟨12, _⟩ => ⟨S640000, .f32⟩
  | .hbm, ⟨13, _⟩ => ⟨S_, .f32⟩
  | .hbm, ⟨14, _⟩ => ⟨S20000, .f32⟩
  | .hbm, ⟨15, _⟩ => ⟨S640000x1, .i32⟩
  | .hbm, ⟨16, _⟩ => ⟨S20000, .f32⟩
  | .hbm, ⟨17, _⟩ => ⟨S_, .f32⟩
  | .hbm, ⟨18, _⟩ => ⟨S20000, .f32⟩
  | .hbm, ⟨19, _⟩ => ⟨S20000, .f32⟩
  | .hbm, ⟨20, _⟩ => ⟨S20000, .f32⟩
  | .hbm, ⟨21, _⟩ => ⟨S_, .i32⟩
  | .hbm, ⟨22, _⟩ => ⟨S640000, .i32⟩
  | .hbm, ⟨23, _⟩ => ⟨S640000, .i1⟩
  | .hbm, ⟨24, _⟩ => ⟨S_, .i32⟩
  | .hbm, ⟨25, _⟩ => ⟨S640000, .i32⟩
  | .hbm, ⟨26, _⟩ => ⟨S640000, .i32⟩
  | .hbm, ⟨27, _⟩ => ⟨S640000, .i32⟩
  | .hbm, ⟨28, _⟩ => ⟨S640000x1, .i32⟩
  | .hbm, ⟨29, _⟩ => ⟨S640000, .f32⟩
  | .hbm, ⟨30, _⟩ => ⟨S_, .i32⟩
  | .hbm, ⟨31, _⟩ => ⟨S640000, .i32⟩
  | .hbm, ⟨32, _⟩ => ⟨S640000, .i1⟩
  | .hbm, ⟨33, _⟩ => ⟨S_, .i32⟩
  | .hbm, ⟨34, _⟩ => ⟨S640000, .i32⟩
  | .hbm, ⟨35, _⟩ => ⟨S640000, .i32⟩
  | .hbm, ⟨36, _⟩ => ⟨S640000, .i32⟩
  | .hbm, ⟨37, _⟩ => ⟨S640000x1, .i32⟩
  | .hbm, ⟨38, _⟩ => ⟨S640000, .f32⟩
  | .hbm, ⟨39, _⟩ => ⟨S640000, .f32⟩
  | .hbm, ⟨40, _⟩ => ⟨S_, .i32⟩
  | .hbm, ⟨41, _⟩ => ⟨S640000, .i32⟩
  | .hbm, ⟨42, _⟩ => ⟨S640000, .i1⟩
  | .hbm, ⟨43, _⟩ => ⟨S_, .i32⟩
  | .hbm, ⟨44, _⟩ => ⟨S640000, .i32⟩
  | .hbm, ⟨45, _⟩ => ⟨S640000, .i32⟩
  | .hbm, ⟨46, _⟩ => ⟨S640000, .i32⟩
  | .hbm, ⟨47, _⟩ => ⟨S640000x1, .i32⟩
  | .hbm, ⟨48, _⟩ => ⟨S640000x128, .f32⟩
  | .hbm, ⟨49, _⟩ => ⟨S640000x1, .f32⟩
  | .hbm, ⟨50, _⟩ => ⟨S640000x128, .f32⟩
  | .hbm, ⟨51, _⟩ => ⟨S640000x128, .f32⟩
  | .hbm, ⟨52, _⟩ => ⟨S_, .f32⟩
  | .hbm, ⟨53, _⟩ => ⟨S20000x128, .f32⟩
  | .hbm, ⟨54, _⟩ => ⟨S640000x1, .i32⟩
  | .hbm, ⟨55, _⟩ => ⟨S20000x128, .f32⟩
  | .hbm, ⟨56, _⟩ => ⟨S20000, .f32⟩
  | .hbm, ⟨57, _⟩ => ⟨S20000x1, .f32⟩
  | .hbm, ⟨58, _⟩ => ⟨S1x128, .f32⟩
  | .hbm, ⟨59, _⟩ => ⟨S20000x128, .f32⟩
  | .hbm, ⟨60, _⟩ => ⟨S20000x64, .f32⟩
  | .hbm, ⟨61, _⟩ => ⟨S_, .f32⟩
  | .hbm, ⟨62, _⟩ => ⟨S640000, .f32⟩
  | .hbm, ⟨63, _⟩ => ⟨S_, .f32⟩
  | .hbm, ⟨64, _⟩ => ⟨S20000, .f32⟩
  | .hbm, ⟨65, _⟩ => ⟨S640000x1, .i32⟩
  | .hbm, ⟨66, _⟩ => ⟨S20000, .f32⟩
  | .hbm, ⟨67, _⟩ => ⟨S_, .f32⟩
  | .hbm, ⟨68, _⟩ => ⟨S20000, .f32⟩
  | .hbm, ⟨69, _⟩ => ⟨S20000, .f32⟩
  | .hbm, ⟨70, _⟩ => ⟨S20000, .f32⟩
  | .hbm, ⟨71, _⟩ => ⟨S_, .i32⟩
  | .hbm, ⟨72, _⟩ => ⟨S640000, .i32⟩
  | .hbm, ⟨73, _⟩ => ⟨S640000, .i1⟩
  | .hbm, ⟨74, _⟩ => ⟨S_, .i32⟩
  | .hbm, ⟨75, _⟩ => ⟨S640000, .i32⟩
  | .hbm, ⟨76, _⟩ => ⟨S640000, .i32⟩
  | .hbm, ⟨77, _⟩ => ⟨S640000, .i32⟩
  | .hbm, ⟨78, _⟩ => ⟨S640000x1, .i32⟩
  | .hbm, ⟨79, _⟩ => ⟨S640000, .f32⟩
  | .hbm, ⟨80, _⟩ => ⟨S_, .i32⟩
  | .hbm, ⟨81, _⟩ => ⟨S640000, .i32⟩
  | .hbm, ⟨82, _⟩ => ⟨S640000, .i1⟩
  | .hbm, ⟨83, _⟩ => ⟨S_, .i32⟩
  | .hbm, ⟨84, _⟩ => ⟨S640000, .i32⟩
  | .hbm, ⟨85, _⟩ => ⟨S640000, .i32⟩
  | .hbm, ⟨86, _⟩ => ⟨S640000, .i32⟩
  | .hbm, ⟨87, _⟩ => ⟨S640000x1, .i32⟩
  | .hbm, ⟨88, _⟩ => ⟨S640000, .f32⟩
  | .hbm, ⟨89, _⟩ => ⟨S640000, .f32⟩
  | .hbm, ⟨90, _⟩ => ⟨S_, .i32⟩
  | .hbm, ⟨91, _⟩ => ⟨S640000, .i32⟩
  | .hbm, ⟨92, _⟩ => ⟨S640000, .i1⟩
  | .hbm, ⟨93, _⟩ => ⟨S_, .i32⟩
  | .hbm, ⟨94, _⟩ => ⟨S640000, .i32⟩
  | .hbm, ⟨95, _⟩ => ⟨S640000, .i32⟩
  | .hbm, ⟨96, _⟩ => ⟨S640000, .i32⟩
  | .hbm, ⟨97, _⟩ => ⟨S640000x1, .i32⟩
  | .hbm, ⟨98, _⟩ => ⟨S640000x64, .f32⟩
  | .hbm, ⟨99, _⟩ => ⟨S640000x1, .f32⟩
  | .hbm, ⟨100, _⟩ => ⟨S640000x64, .f32⟩
  | .hbm, ⟨101, _⟩ => ⟨S640000x64, .f32⟩
  | .hbm, ⟨102, _⟩ => ⟨S_, .f32⟩
  | .hbm, ⟨103, _⟩ => ⟨S20000x64, .f32⟩
  | .hbm, ⟨104, _⟩ => ⟨S640000x1, .i32⟩
  | .hbm, ⟨105, _⟩ => ⟨S20000x64, .f32⟩
  | .hbm, ⟨106, _⟩ => ⟨S20000, .f32⟩
  | .hbm, ⟨107, _⟩ => ⟨S20000x1, .f32⟩
  | .hbm, ⟨108, _⟩ => ⟨S1x64, .f32⟩
  | .hbm, ⟨109, _⟩ => ⟨S20000x64, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x1, .f32⟩
  | .local _ .vmem, ⟨24, _⟩ => ⟨S2000x1, .f32⟩
  | .local _ .vmem, ⟨25, _⟩ => ⟨S1x64, .f32⟩
  | .local _ .vmem, ⟨26, _⟩ => ⟨S2000x64, .f32⟩
  | .local _ .vmem, ⟨27, _⟩ => ⟨S2000x64, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_c_11 : Ref sig .tc := ⟨.hbm, 71, rfl⟩
abbrev main_v52 : Ref sig .tc := ⟨.hbm, 72, rfl⟩
abbrev main_v53 : Ref sig .tc := ⟨.hbm, 73, rfl⟩
abbrev main_c_12 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_c_13 : Ref sig .tc := ⟨.hbm, 80, rfl⟩
abbrev main_v59 : Ref sig .tc := ⟨.hbm, 81, rfl⟩
abbrev main_v60 : Ref sig .tc := ⟨.hbm, 82, rfl⟩
abbrev main_c_14 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_c_15 : Ref sig .tc := ⟨.hbm, 90, rfl⟩
abbrev main_v67 : Ref sig .tc := ⟨.hbm, 91, rfl⟩
abbrev main_v68 : Ref sig .tc := ⟨.hbm, 92, rfl⟩
abbrev main_c_16 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_17 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S640000 : S_.BroadcastsInDim S640000 (![] : Fin 0 → Fin S640000.rank)
  bcast_S_S20000 : S_.BroadcastsInDim S20000 (![] : Fin 0 → Fin S20000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S20000x128 : S_.BroadcastsInDim S20000x128 (![] : Fin 0 → Fin S20000x128.rank)
  shapeCasts_S20000_S20000x1 : S20000.ShapeCasts S20000x1
  shapeCasts_S128_S1x128 : S128.ShapeCasts S1x128
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S640000x1_S640000x64_0_1 : S640000x1.BroadcastsInDim S640000x64 (![0, 1] : Fin 2 → Fin S640000x64.rank)
  bcast_S_S20000x64 : S_.BroadcastsInDim S20000x64 (![] : Fin 0 → Fin S20000x64.rank)
  shapeCasts_S64_S1x64 : S64.ShapeCasts S1x64
  shapeCasts_S2000x64_S2000x64 : S2000x64.ShapeCasts S2000x64
  broadcasts_S2000x1_S2000x64 : S2000x1.Broadcasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  dot_S2000x128_S128x128_S2000x128_1_0_0_1_n_n_wf : DotDims.WF S2000x128 S128x128 S2000x128 [1] [0] [0] [1] [] []
  scatter_S20000_S640000x1_S640000_n_0_0_1_wf : ScatterDims.WF S20000 S640000x1 S640000 [] [0] [0] 1
  gather_S20000_S640000x1_S640000_n_0_n_n_0_1_1_wf : GatherDims.WF S20000 S640000x1 S640000 [] [0] [] [0] [] 1 ![1]
  gather_S20000x128_S640000x1_S640000x128_1_0_n_n_0_1_1128_wf : GatherDims.WF S20000x128 S640000x1 S640000x128 [1] [0] [] [0] [] 1 ![1, 128]
  scatter_S20000x128_S640000x1_S640000x128_1_0_0_1_wf : ScatterDims.WF S20000x128 S640000x1 S640000x128 [1] [0] [0] 1
  dot_S2000x128_S128x64_S2000x64_1_0_0_1_n_n_wf : DotDims.WF S2000x128 S128x64 S2000x64 [1] [0] [0] [1] [] []
  gather_S20000x64_S640000x1_S640000x64_1_0_n_n_0_1_164_wf : GatherDims.WF S20000x64 S640000x1 S640000x64 [1] [0] [] [0] [] 1 ![1, 64]
  scatter_S20000x64_S640000x1_S640000x64_1_0_0_1_wf : ScatterDims.WF S20000x64 S640000x1 S640000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S20000x128.size a
  hwx0_0 : ∀ i : grid0.Coords, EltTy.bits .f32 = 32 ∨ (Rect.block (s := S20000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S20000x128.size a
  hwx0_2 : ∀ i : grid0.Coords, EltTy.bits .f32 = 32 ∨ (Rect.block (s := S20000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S20000x128.size a
  hwx1_0 : ∀ i : grid1.Coords, EltTy.bits .f32 = 32 ∨ (Rect.block (s := S20000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S20000x128.size a
  hwx1_1 : ∀ i : grid1.Coords, EltTy.bits .f32 = 32 ∨ (Rect.block (s := S20000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S20000x1.size a
  hwx1_2 : ∀ i : grid1.Coords, EltTy.bits .f32 = 32 ∨ (Rect.block (s := S20000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S20000x128.size a
  hwx1_4 : ∀ i : grid1.Coords, EltTy.bits .f32 = 32 ∨ (Rect.block (s := S20000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S20000x128.size a
  hwx2_0 : ∀ i : grid2.Coords, EltTy.bits .f32 = 32 ∨ (Rect.block (s := S20000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S20000x64.size a
  hwx2_2 : ∀ i : grid2.Coords, EltTy.bits .f32 = 32 ∨ (Rect.block (s := S20000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S20000x64.size a
  hwx3_0 : ∀ i : grid3.Coords, EltTy.bits .f32 = 32 ∨ (Rect.block (s := S20000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S20000x64.size a
  hwx3_1 : ∀ i : grid3.Coords, EltTy.bits .f32 = 32 ∨ (Rect.block (s := S20000x64) S2000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S20000x1.size a
  hwx3_2 : ∀ i : grid3.Coords, EltTy.bits .f32 = 32 ∨ (Rect.block (s := S20000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x64.size a ≤ S20000x64.size a
  hwx3_4 : ∀ i : grid3.Coords, EltTy.bits .f32 = 32 ∨ (Rect.block (s := S20000x64) S2000x64.size (cc3_transform_4 i) (hinb3_4 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S20000_S640000x1_S640000_n_0_0_1 : ScatterDims S20000 S640000x1 S640000 where
  updateWindowDims := []
  insertedWindowDims := [0]
  scatterDimsToOperandDims := [0]
  indexVectorDim := 1
  wf := scatter_S20000_S640000x1_S640000_n_0_0_1_wf
def gather_S20000_S640000x1_S640000_n_0_n_n_0_1_1 : GatherDims S20000 S640000x1 S640000 where
  offsetDims := []
  collapsedSliceDims := [0]
  operandBatchingDims := []
  startIndicesBatchingDims := []
  startIndexMap := [0]
  indexVectorDim := 1
  sliceSizes := ![1]
  wf := gather_S20000_S640000x1_S640000_n_0_n_n_0_1_1_wf
def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S20000x64_S640000x1_S640000x64_1_0_n_n_0_1_164 : GatherDims S20000x64 S640000x1 S640000x64 where
  offsetDims := [1]
  collapsedSliceDims := [0]
  operandBatchingDims := []
  startIndicesBatchingDims := []
  startIndexMap := [0]
  indexVectorDim := 1
  sliceSizes := ![1, 64]
  wf := gather_S20000x64_S640000x1_S640000x64_1_0_n_n_0_1_164_wf
def scatter_S20000x64_S640000x1_S640000x64_1_0_0_1 : ScatterDims S20000x64 S640000x1 S640000x64 where
  updateWindowDims := [1]
  insertedWindowDims := [0]
  scatterDimsToOperandDims := [0]
  indexVectorDim := 1
  wf := scatter_S20000x64_S640000x1_S640000x64_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v79) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v81) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v82) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v83) S2000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S20000x128 : Shape := ⟨2, ![20000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x640000 : Shape := ⟨2, ![1, 640000]⟩
abbrev S640000 : Shape := ⟨1, ![640000]⟩
abbrev S_ : Shape := ⟨0, ![]⟩
abbrev S20000 : Shape := ⟨1, ![20000]⟩
abbrev S640000x1 : Shape := ⟨2, ![640000, 1]⟩
abbrev S640000x128 : Shape := ⟨2, ![640000, 128]⟩
abbrev S20000x1 : Shape := ⟨2, ![20000, 1]⟩
abbrev S1x128 : Shape := ⟨2, ![1, 128]⟩
abbrev S20000x64 : Shape := ⟨2, ![20000, 64]⟩
abbrev S640000x64 : Shape := ⟨2, ![640000, 64]⟩
abbrev S1x64 : Shape := ⟨2, ![1, 64]⟩

abbrev nBuf : Space → Nat
  | .hbm => 121
  | .vmem => 0
  | .smem => 0
  | _ => 0

abbrev bufTy : (tb : Table) → Fin (tcTables nBuf tb) → BufTy
  | .hbm, ⟨0, _⟩ => ⟨S20000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x640000, .i32⟩
  | .hbm, ⟨7, _⟩ => ⟨S640000, .i32⟩
  | .hbm, ⟨8, _⟩ => ⟨S1x640000, .i32⟩
  | .hbm, ⟨9, _⟩ => ⟨S640000, .i32⟩
  | .hbm, ⟨10, _⟩ => ⟨S20000x128, .f32⟩
  | .hbm, ⟨11, _⟩ => ⟨S_, .f32⟩
  | .hbm, ⟨12, _⟩ => ⟨S640000, .f32⟩
  | .hbm, ⟨13, _⟩ => ⟨S_, .f32⟩
  | .hbm, ⟨14, _⟩ => ⟨S20000, .f32⟩
  | .hbm, ⟨15, _⟩ => ⟨S640000x1, .i32⟩
  | .hbm, ⟨16, _⟩ => ⟨S20000, .f32⟩
  | .hbm, ⟨17, _⟩ => ⟨S_, .f32⟩
  | .hbm, ⟨18, _⟩ => ⟨S20000, .f32⟩
  | .hbm, ⟨19, _⟩ => ⟨S20000, .f32⟩
  | .hbm, ⟨20, _⟩ => ⟨S20000, .f32⟩
  | .hbm, ⟨21, _⟩ => ⟨S_, .i32⟩
  | .hbm, ⟨22, _⟩ => ⟨S640000, .i32⟩
  | .hbm, ⟨23, _⟩ => ⟨S640000, .i1⟩
  | .hbm, ⟨24, _⟩ => ⟨S_, .i32⟩
  | .hbm, ⟨25, _⟩ => ⟨S640000, .i32⟩
  | .hbm, ⟨26, _⟩ => ⟨S640000, .i32⟩
  | .hbm, ⟨27, _⟩ => ⟨S640000, .i32⟩
  | .hbm, ⟨28, _⟩ => ⟨S640000x1, .i32⟩
  | .hbm, ⟨29, _⟩ => ⟨S640000, .f32⟩
  | .hbm, ⟨30, _⟩ => ⟨S_, .i32⟩
  | .hbm, ⟨31, _⟩ => ⟨S640000, .i32⟩
  | .hbm, ⟨32, _⟩ => ⟨S640000, .i1⟩
  | .hbm, ⟨33, _⟩ => ⟨S_, .i32⟩
  | .hbm, ⟨34, _⟩ => ⟨S640000, .i32⟩
  | .hbm, ⟨35, _⟩ => ⟨S640000, .i32⟩
  | .hbm, ⟨36, _⟩ => ⟨S640000, .i32⟩
  | .hbm, ⟨37, _⟩ => ⟨S640000x1, .i32⟩
  | .hbm, ⟨38, _⟩ => ⟨S640000, .f32⟩
  | .hbm, ⟨39, _⟩ => ⟨S640000, .f32⟩
  | .hbm, ⟨40, _⟩ => ⟨S_, .i32⟩
  | .hbm, ⟨41, _⟩ => ⟨S640000, .i32⟩
  | .hbm, ⟨42, _⟩ => ⟨S640000, .i1⟩
  | .hbm, ⟨43, _⟩ => ⟨S_, .i32⟩
  | .hbm, ⟨44, _⟩ => ⟨S640000, .i32⟩
  | .hbm, ⟨45, _⟩ => ⟨S640000, .i32⟩
  | .hbm, ⟨46, _⟩ => ⟨S640000, .i32⟩
  | .hbm, ⟨47, _⟩ => ⟨S640000x1, .i32⟩
  | .hbm, ⟨48, _⟩ => ⟨S640000x128, .f32⟩
  | .hbm, ⟨49, _⟩ => ⟨S640000x1, .f32⟩
  | .hbm, ⟨50, _⟩ => ⟨S640000x128, .f32⟩
  | .hbm, ⟨51, _⟩ => ⟨S640000x128, .f32⟩
  | .hbm, ⟨52, _⟩ => ⟨S_, .f32⟩
  | .hbm, ⟨53, _⟩ => ⟨S20000x128, .f32⟩
  | .hbm, ⟨54, _⟩ => ⟨S640000x1, .i32⟩
  | .hbm, ⟨55, _⟩ => ⟨S20000x128, .f32⟩
  | .hbm, ⟨56, _⟩ => ⟨S20000, .f32⟩
  | .hbm, ⟨57, _⟩ => ⟨S20000x1, .f32⟩
  | .hbm, ⟨58, _⟩ => ⟨S20000x128, .f32⟩
  | .hbm, ⟨59, _⟩ => ⟨S20000x128, .f32⟩
  | .hbm, ⟨60, _⟩ => ⟨S20000x128, .f32⟩
  | .hbm, ⟨61, _⟩ => ⟨S1x128, .f32⟩
  | .hbm, ⟨62, _⟩ => ⟨S20000x128, .f32⟩
  | .hbm, ⟨63, _⟩ => ⟨S20000x128, .f32⟩
  | .hbm, ⟨64, _⟩ => ⟨S_, .f32⟩
  | .hbm, ⟨65, _⟩ => ⟨S20000x128, .f32⟩
  | .hbm, ⟨66, _⟩ => ⟨S20000x128, .f32⟩
  | .hbm, ⟨67, _⟩ => ⟨S20000x64, .f32⟩
  | .hbm, ⟨68, _⟩ => ⟨S_, .f32⟩
  | .hbm, ⟨69, _⟩ => ⟨S640000, .f32⟩
  | .hbm, ⟨70, _⟩ => ⟨S_, .f32⟩
  | .hbm, ⟨71, _⟩ => ⟨S20000, .f32⟩
  | .hbm, ⟨72, _⟩ => ⟨S640000x1, .i32⟩
  | .hbm, ⟨73, _⟩ => ⟨S20000, .f32⟩
  | .hbm, ⟨74, _⟩ => ⟨S_, .f32⟩
  | .hbm, ⟨75, _⟩ => ⟨S20000, .f32⟩
  | .hbm, ⟨76, _⟩ => ⟨S20000, .f32⟩
  | .hbm, ⟨77, _⟩ => ⟨S20000, .f32⟩
  | .hbm, ⟨78, _⟩ => ⟨S_, .i32⟩
  | .hbm, ⟨79, _⟩ => ⟨S640000, .i32⟩
  | .hbm, ⟨80, _⟩ => ⟨S640000, .i1⟩
  | .hbm, ⟨81, _⟩ => ⟨S_, .i32⟩
  | .hbm, ⟨82, _⟩ => ⟨S640000, .i32⟩
  | .hbm, ⟨83, _⟩ => ⟨S640000, .i32⟩
  | .hbm, ⟨84, _⟩ => ⟨S640000, .i32⟩
  | .hbm, ⟨85, _⟩ => ⟨S640000x1, .i32⟩
  | .hbm, ⟨86, _⟩ => ⟨S640000, .f32⟩
  | .hbm, ⟨87, _⟩ => ⟨S_, .i32⟩
  | .hbm, ⟨88, _⟩ => ⟨S640000, .i32⟩
  | .hbm, ⟨89, _⟩ => ⟨S640000, .i1⟩
  | .hbm, ⟨90, _⟩ => ⟨S_, .i32⟩
  | .hbm, ⟨91, _⟩ => ⟨S640000, .i32⟩
  | .hbm, ⟨92, _⟩ => ⟨S640000, .i32⟩
  | .hbm, ⟨93, _⟩ => ⟨S640000, .i32⟩
  | .hbm, ⟨94, _⟩ => ⟨S640000x1, .i32⟩
  | .hbm, ⟨95, _⟩ => ⟨S640000, .f32⟩
  | .hbm, ⟨96, _⟩ => ⟨S640000, .f32⟩
  | .hbm, ⟨97, _⟩ => ⟨S_, .i32⟩
  | .hbm, ⟨98, _⟩ => ⟨S640000, .i32⟩
  | .hbm, ⟨99, _⟩ => ⟨S640000, .i1⟩
  | .hbm, ⟨100, _⟩ => ⟨S_, .i32⟩
  | .hbm, ⟨101, _⟩ => ⟨S640000, .i32⟩
  | .hbm, ⟨102, _⟩ => ⟨S640000, .i32⟩
  | .hbm, ⟨103, _⟩ => ⟨S640000, .i32⟩
  | .hbm, ⟨104, _⟩ => ⟨S640000x1, .i32⟩
  | .hbm, ⟨105, _⟩ => ⟨S640000x64, .f32⟩
  | .hbm, ⟨106, _⟩ => ⟨S640000x1, .f32⟩
  | .hbm, ⟨107, _⟩ => ⟨S640000x64, .f32⟩
  | .hbm, ⟨108, _⟩ => ⟨S640000x64, .f32⟩
  | .hbm, ⟨109, _⟩ => ⟨S_, .f32⟩
  | .hbm, ⟨110, _⟩ => ⟨S20000x64, .f32⟩
  | .hbm, ⟨111, _⟩ => ⟨S640000x1, .i32⟩
  | .hbm, ⟨112, _⟩ => ⟨S20000x64, .f32⟩
  | .hbm, ⟨113, _⟩ => ⟨S20000, .f32⟩
  | .hbm, ⟨114, _⟩ => ⟨S20000x1, .f32⟩
  | .hbm, ⟨115, _⟩ => ⟨S20000x64, .f32⟩
  | .hbm, ⟨116, _⟩ => ⟨S20000x64, .f32⟩
  | .hbm, ⟨117, _⟩ => ⟨S20000x64, .f32⟩
  | .hbm, ⟨118, _⟩ => ⟨S1x64, .f32⟩
  | .hbm, ⟨119, _⟩ => ⟨S20000x64, .f32⟩
  | .hbm, ⟨120, _⟩ => ⟨S20000x64, .f32⟩
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_c_14 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_15 : Ref sig .tc := ⟨.hbm, 97, rfl⟩
abbrev main_v72 : Ref sig .tc := ⟨.hbm, 98, rfl⟩
abbrev main_v73 : Ref sig .tc := ⟨.hbm, 99, rfl⟩
abbrev main_c_16 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_17 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S20000 : S_.BroadcastsInDim S20000 (![] : Fin 0 → Fin S20000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S20000x128 : S_.BroadcastsInDim S20000x128 (![] : Fin 0 → Fin S20000x128.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S640000x1_S640000x64_0_1 : S640000x1.BroadcastsInDim S640000x64 (![0, 1] : Fin 2 → Fin S640000x64.rank)
  bcast_S_S20000x64 : S_.BroadcastsInDim S20000x64 (![] : Fin 0 → Fin S20000x64.rank)
  bcast_S20000x1_S20000x64_0_1 : S20000x1.BroadcastsInDim S20000x64 (![0, 1] : Fin 2 → Fin S20000x64.rank)
  bcast_S64_S1x64_1 : S64.BroadcastsInDim S1x64 (![1] : Fin 1 → Fin S1x64.rank)
  bcast_S1x64_S20000x64_0_1 : S1x64.BroadcastsInDim S20000x64 (![0, 1] : Fin 2 → Fin S20000x64.rank)
  dot_S20000x128_S128x128_S20000x128_1_0_0_1_n_n_wf : DotDims.WF S20000x128 S128x128 S20000x128 [1] [0] [0] [1] [] []
  scatter_S20000_S640000x1_S640000_n_0_0_1_wf : ScatterDims.WF S20000 S640000x1 S640000 [] [0] [0] 1
  gather_S20000_S640000x1_S640000_n_0_n_n_0_1_1_wf : GatherDims.WF S20000 S640000x1 S640000 [] [0] [] [0] [] 1 ![1]
  gather_S20000x128_S640000x1_S640000x128_1_0_n_n_0_1_1128_wf : GatherDims.WF S20000x128 S640000x1 S640000x128 [1] [0] [] [0] [] 1 ![1, 128]
  scatter_S20000x128_S640000x1_S640000x128_1_0_0_1_wf : ScatterDims.WF S20000x128 S640000x1 S640000x128 [1] [0] [0] 1
  dot_S20000x128_S128x64_S20000x64_1_0_0_1_n_n_wf : DotDims.WF S20000x128 S128x64 S20000x64 [1] [0] [0] [1] [] []
  gather_S20000x64_S640000x1_S640000x64_1_0_n_n_0_1_164_wf : GatherDims.WF S20000x64 S640000x1 S640000x64 [1] [0] [] [0] [] 1 ![1, 64]
  scatter_S20000x64_S640000x1_S640000x64_1_0_0_1_wf : ScatterDims.WF S20000x64 S640000x1 S640000x64 [1] [0] [0] 1

variable [Facts₀]

def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def scatter_S20000_S640000x1_S640000_n_0_0_1 : ScatterDims S20000 S640000x1 S640000 where
  updateWindowDims := []
  insertedWindowDims := [0]
  scatterDimsToOperandDims := [0]
  indexVectorDim := 1
  wf := scatter_S20000_S640000x1_S640000_n_0_0_1_wf
def gather_S20000_S640000x1_S640000_n_0_n_n_0_1_1 : GatherDims S20000 S640000x1 S640000 where
  offsetDims := []
  collapsedSliceDims := [0]
  operandBatchingDims := []
  startIndicesBatchingDims := []
  startIndexMap := [0]
  indexVectorDim := 1
  sliceSizes := ![1]
  wf := gather_S20000_S640000x1_S640000_n_0_n_n_0_1_1_wf
def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def dot_S20000x128_S128x64_S20000x64_1_0_0_1_n_n : DotDims S20000x128 S128x64 S20000x64 where
  lhsContracting := [1]
  rhsContracting := [0]
  lhsNonContracting := [0]
  rhsNonContracting := [1]
  lhsBatch := []
  rhsBatch := []
  wf := dot_S20000x128_S128x64_S20000x64_1_0_0_1_n_n_wf
def gather_S20000x64_S640000x1_S640000x64_1_0_n_n_0_1_164 : GatherDims S20000x64 S640000x1 S640000x64 where
  offsetDims := [1]
  collapsedSliceDims := [0]
  operandBatchingDims := []
  startIndicesBatchingDims := []
  startIndexMap := [0]
  indexVectorDim := 1
  sliceSizes := ![1, 64]
  wf := gather_S20000x64_S640000x1_S640000x64_1_0_n_n_0_1_164_wf
def scatter_S20000x64_S640000x1_S640000x64_1_0_0_1 : ScatterDims S20000x64 S640000x1 S640000x64 where
  updateWindowDims := [1]
  insertedWindowDims := [0]
  scatterDimsToOperandDims := [0]
  indexVectorDim := 1
  wf := scatter_S20000x64_S640000x1_S640000x64_1_0_0_1_wf

class Facts : Prop extends Facts₀ where

variable [Facts]
-- ==== Proof.LibRowOps.lean ====
/-
  Row-wise readings of the operations a row-parallel kernel body is made of, at an index written with the
  coordinate constructors: a plain `M × K` by `K × N` matrix product into a zero accumulator read at `(p, q)` is the
  sum over `k` of the left operand's row `p` times the right operand's column `q`; a sum (a maximum) along the
  second axis of an `[a, b]` array read at row `p` is the sum (the fold of `max`) of that row's entries.
-/
import Idealize.ShloMosaic.Lib.ValueIdx
import Idealize.ShloMosaic.PureOps.Ideal.Laws

namespace Cert.LibRowOps

open Idealize.ShloMosaic Idealize.ShloMosaic.ValueIdx

/-! ## A plain matrix product -/

section Plain
variable (M K N : ℕ)

theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_lhs_contr (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs_contr (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The product of an `[M, K]` by a `[K, N]` array accumulated into zero, at `(p, q)`: the sum over the contracted
    coordinate of row `p` of the left factor times column `q` of the right one. -/
theorem matmul_plain_zero_apply {φ₁ φ₂ : FTy} (l : FVec Ideal ⟨2, ![M, K]⟩ φ₁) (r : FVec Ideal ⟨2, ![K, N]⟩ φ₂)
    (p : Fin M) (q : Fin N) :
    FloatOps.matmul (DotDims.plain M K N) none l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row M K N _ _
      | ⟨1, _⟩ => exact (plain_lhs_contr M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_contr M K N _ _).trans hk
      | ⟨1, _⟩ => exact plain_rhs_col M K N _ _)
  rw [el, er]

end Plain

/-! ## Reductions along the rows of a matrix -/

section Rows
variable {a b : ℕ} {φ : FTy}

/-- Over row `p` of the reduced vector, the source index with coordinate `k` put back on the dropped axis is `(p, k)`. -/
theorem lift_row (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

/-- A sum along the second axis, at row `p`: the sum of the row's entries. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- A maximum along the second axis, at row `p`: the fold of `max`, from the accumulator's value, over the row's entries. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (Finset.fold max (Ideal.ofBits φ acc) · Finset.univ) (funext fun k => congrArg src (lift_row h p k)))

end Rows

end Cert.LibRowOps
-- ==== Proof.LibHostRows.lean ====
/-
  Row-wise readings of the host program's operations, at an index written with the coordinate constructors: a plain
  `dot_general` at `(p, q)` is the sum over the contracted coordinate; a sum (a maximum) over the second axis at row `p`
  is the initial value plus the row's sum (the fold of `max` from the initial value over the row); and the
  `broadcast_in_dim` forms a keepdims reduction and a bias need: a scalar spread over any shape, a vector made a column
  or a row, a column or a row spread over a matrix.
-/
import proofs.«179062_j68143951118599_1_alg».proof.Proof.LibRowOps
import Idealize.ShloMosaic.Lib.Pipeline.Value

namespace Cert.LibHostRows

open Idealize.ShloMosaic Idealize.ShloMosaic.ValueIdx

/-! ## The host's pointwise operations -/

section Pointwise
variable {s : Shape} {φ : FTy}

theorem hostDivf_apply (x y : FVec Ideal s φ) (i : s.Idx) : Host.divf x y i = Ideal.div (x i) (y i) := rfl
theorem hostSqrt_apply (x : FVec Ideal s φ) (i : s.Idx) : Host.sqrt x i = Ideal.sqrt (x i) := rfl
theorem hostExp_apply (x : FVec Ideal s φ) (i : s.Idx) : Host.exp x i = Ideal.exp (x i) := rfl
theorem hostLog_apply (x : FVec Ideal s φ) (i : s.Idx) : Host.log x i = Ideal.log (x i) := rfl

end Pointwise

/-! ## The host's matrix product -/

/-- A plain `dot_general` of an `[M, K]` by a `[K, N]` array, at `(p, q)`. -/
theorem dotGeneral_plain_apply (M K N : ℕ) {φ₁ φ₂ : FTy} (sched : HostSchedule) (l : FVec Ideal ⟨2, ![M, K]⟩ φ₁)
    (r : FVec Ideal ⟨2, ![K, N]⟩ φ₂) (p : Fin M) (q : Fin N) :
    FloatOps.dotGeneral (DotDims.plain M K N) none sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact LibRowOps.plain_lhs_row M K N _ _
      | ⟨1, _⟩ => exact (LibRowOps.plain_lhs_contr M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (LibRowOps.plain_rhs_contr M K N _ _).trans hk
      | ⟨1, _⟩ => exact LibRowOps.plain_rhs_col M K N _ _)
  rw [el, er]

/-! ## The host's reductions along the rows of a matrix -/

section Rows
variable {a b : ℕ} {φ : FTy} {u : Shape}

/-- The host's sum over the second axis, at row `p`: the initial value plus the sum of the row's entries. -/
theorem hostRowSum_apply (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩) (hu : 0 < u.numel)
    (p : Fin a) :
    Host.reduceAdd x init h' hu (ix1 p) = init (Shape.Idx.first hu) + ∑ k : Fin b, x (ix2 p k) := by
  unfold Host.reduceAdd
  rw [Ideal.hostReduceAdd_def, Ideal.hostReduceAdd_single h' h]
  exact congrArg (_ + ·) (Finset.sum_congr rfl fun k _ => congrArg x (LibRowOps.lift_row h p k))

/-- The host's maximum over the second axis, at row `p`: the fold of `max` from the initial value over the row's entries. -/
theorem hostRowMax_apply (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩) (hu : 0 < u.numel)
    (p : Fin a) :
    Host.reduce (FloatOps.maximumf (F := Ideal) (φ := φ)) x init h' hu (ix1 p)
      = (Finset.univ : Finset (Fin b)).fold max (init (Shape.Idx.first hu)) (fun k => x (ix2 p k)) := by
  rw [Host.reduce_eq_fold_single (FloatOps.maximumf (F := Ideal) (φ := φ)) x init h' h hu (ix1 p)]
  exact congrArg (Finset.fold max (init (Shape.Idx.first hu)) · Finset.univ) (funext fun k => congrArg x (LibRowOps.lift_row h p k))

end Rows

/-! ## `broadcast_in_dim` -/

section Bcast
variable {α : Type} {a b : ℕ}

/-- A scalar spread over any shape reads the scalar everywhere. -/
theorem bcast_scalar_apply {t : Shape} (h : (⟨0, ![]⟩ : Shape).BroadcastsInDim t ![]) (v : (⟨0, ![]⟩ : Shape).Idx → α) (j : t.Idx) :
    broadcastInDim t ![] h v j = v ix0 :=
  broadcastInDim_apply ![] h v j ix0 fun ax => ax.elim0

/-- A vector `[a]` made a column `[a, 1]` reads, at `(p, u)`, the vector at `p`. -/
theorem bcast_vec_col_apply (h : (⟨1, ![a]⟩ : Shape).BroadcastsInDim ⟨2, ![a, 1]⟩ ![0]) (v : (⟨1, ![a]⟩ : Shape).Idx → α)
    (p : Fin a) (u : Fin 1) : broadcastInDim ⟨2, ![a, 1]⟩ ![0] h v (ix2 p u) = v (ix1 p) :=
  broadcastInDim_apply ![0] h v (ix2 p u) (ix1 p) fun ax => by
    match ax with
    | ⟨0, _⟩ =>
      show p.val = if a = 1 then 0 else p.val
      split
      · have := p.isLt; omega
      · rfl

/-- A vector `[b]` made a row `[1, b]` reads, at `(u, c)`, the vector at `c`. -/
theorem bcast_vec_row_apply (h : (⟨1, ![b]⟩ : Shape).BroadcastsInDim ⟨2, ![1, b]⟩ ![1]) (v : (⟨1, ![b]⟩ : Shape).Idx → α)
    (u : Fin 1) (c : Fin b) : broadcastInDim ⟨2, ![1, b]⟩ ![1] h v (ix2 u c) = v (ix1 c) :=
  broadcastInDim_apply ![1] h v (ix2 u c) (ix1 c) fun ax => by
    match ax with
    | ⟨0, _⟩ =>
      show c.val = if b = 1 then 0 else c.val
      split
      · have := c.isLt; omega
      · rfl

/-- A column `[a, 1]` spread over `[a, b]` reads, at `(p, c)`, the column's entry of row `p`. -/
theorem bcast_col_apply (h : (⟨2, ![a, 1]⟩ : Shape).BroadcastsInDim ⟨2, ![a, b]⟩ ![0, 1]) (v : (⟨2, ![a, 1]⟩ : Shape).Idx → α)
    (p : Fin a) (c : Fin b) : broadcastInDim ⟨2, ![a, b]⟩ ![0, 1] h v (ix2 p c) = v (ix2 p (0 : Fin 1)) :=
  broadcastInDim_apply ![0, 1] h v (ix2 p c) (ix2 p (0 : Fin 1)) fun ax => by
    match ax with
    | ⟨0, _⟩ =>
      show p.val = if a = 1 then 0 else p.val
      split
      · have := p.isLt; omega
      · rfl
    | ⟨1, _⟩ => rfl

/-- A row `[1, b]` spread over `[a, b]` reads, at `(p, c)`, the row's entry of column `c`. -/
theorem bcast_row_apply (h : (⟨2, ![1, b]⟩ : Shape).BroadcastsInDim ⟨2, ![a, b]⟩ ![0, 1]) (v : (⟨2, ![1, b]⟩ : Shape).Idx → α)
    (p : Fin a) (c : Fin b) : broadcastInDim ⟨2, ![a, b]⟩ ![0, 1] h v (ix2 p c) = v (ix2 (0 : Fin 1) c) :=
  broadcastInDim_apply ![0, 1] h v (ix2 p c) (ix2 (0 : Fin 1) c) fun ax => by
    match ax with
    | ⟨0, _⟩ => rfl
    | ⟨1, _⟩ =>
      show c.val = if b = 1 then 0 else c.val
      split
      · have := c.isLt; omega
      · rfl

end Bcast

end Cert.LibHostRows
-- ==== Proof.DenseOne.lean ====
/-
  The first dense transform, `x · W1`, as the region computes it block by block, is the host's matrix product.
  The region tiles the 20000 rows into ten blocks of 2000. At block `t` the body multiplies rows
  `2000 t … 2000 t + 1999` of the left operand (rounded to bf16, which over the extended reals changes nothing) by the whole
  128 × 128 weight matrix into a zero accumulator, so entry `(p, q)` of what it stores is the sum over `k` of
  `X (2000 t + p, k) · W (k, q)`. That is entry `(2000 t + p, q)` of the host's product of the two whole arrays, and the ten
  blocks cover every row: the array the region leaves IS the host product of the arrays it found.
-/
import proofs.«179062_j68143951118599_1_alg».proof.Proof.Gen.KernelIdeal.Frame
import proofs.«179062_j68143951118599_1_alg».proof.Proof.LibRowOps
import proofs.«179062_j68143951118599_1_alg».proof.Proof.LibHostRows
import Idealize.ShloMosaic.Lib.Pipeline.Value
import Idealize.ShloMosaic.Lib.ValueIdx

set_option maxRecDepth 16384

noncomputable section

namespace Cert.KernelIdeal.DenseOne

open Idealize.ShloMosaic Idealize.ShloMosaic.TcCoe Idealize.ShloMosaic.ValueIdx Idealize.SL.Sem
open Cert.KernelIdeal Cert.KernelIdeal.Gen
open Idealize.ShloMosaic.Pipeline (Dat Cfg Window)

/-- One block's product at `(p, q)`: the sum over the contracted coordinate of row `p` of the block times column `q`
    of the weights (the rounding of both operands to bf16 is the identity on extended reals). -/
theorem pay_apply (x0 : Vec Ideal S2000x128 .f32) (x1 : Vec Ideal S128x128 .f32) (p : Fin 2000) (q : Fin 128) :
    k0_pay1 (F := Ideal) x0 x1 (ix2 p q) = ∑ k : Fin 128, x0 (ix2 p k) * x1 (ix2 k q) := by
  unfold k0_pay1
  exact Cert.LibRowOps.matmul_plain_zero_apply 2000 128 128 x0 x1 p q

/-- The host's product of the whole `20000 × 128` array by the `128 × 128` weights. -/
abbrev G (X : FVec Ideal S20000x128 .f32) (W : FVec Ideal S128x128 .f32) : FVec Ideal S20000x128 .f32 :=
  Host.dotGeneral (F := Ideal) (DotDims.plain 20000 128 128) none X W

/-- Its entry `(r, q)`: row `r` of `X` against column `q` of `W`. -/
theorem G_apply (X : FVec Ideal S20000x128 .f32) (W : FVec Ideal S128x128 .f32) (r : Fin 20000) (q : Fin 128) :
    G X W (ix2 r q) = ∑ k : Fin 128, X (ix2 r k) * W (ix2 k q) := by
  unfold G
  simp only [Host.dotGeneral]
  exact Cert.LibHostRows.dotGeneral_plain_apply 20000 128 128 _ X W r q

variable (V : (c : Dev nD) → (b : Ref sig .tc) → Buf (Elt Ideal) ((c : Thread nD τ).loc b))

theorem hz : (![0, 0] : Fin 2 → Nat) = fun _ => 0 := funext fun a => by fin_cases a <;> rfl

/-- The block indices over the grid: the left operand's row block is the output's, every column block and the weights'
    block are block 0, and the output's row block is one of the ten. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Each of the ten row blocks is some grid point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- What point `t` writes back is block `t` of the host product of the arrays the region found. -/
theorem flushed_eq (c : Dev nD) (t : Fin cfg0.N) :
    (dat0 V c).flushed 2 t = ((cfg0.win 2).blk t).view.read (Elt Ideal) (G (V c main_arg0) (V c main_arg2)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x128) hz]
  funext j
  show k0_pay1 (iblk0 V c 0 t) (iblk0 V c 1 t) j = G (V c main_arg0) (V c main_arg2) (((cfg0.win 2).blk t).view.emb j)
  obtain ⟨p, q, rfl⟩ : ∃ (p : Fin 2000) (q : Fin 128), j = ix2 p q := ⟨j 0, j 1, eq_ix2 j⟩
  refine (pay_apply (iblk0 V c 0 t) (iblk0 V c 1 t) p q).trans ?_
  obtain ⟨e0, e1, e2, e3, e4, e5⟩ := idx_facts t
  have hr : win0_2.index t (0 : Fin 2) * 2000 + p.val < 20000 := by have := p.isLt; omega
  have he : ((cfg0.win 2).blk t).view.emb (ix2 p q) = ix2 (⟨win0_2.index t (0 : Fin 2) * 2000 + p.val, hr⟩ : Fin 20000) q := by
    funext a; apply Fin.ext
    match a with
    | ⟨0, _⟩ => show win0_2.index t (0 : Fin 2) * 2000 + 1 * p.val = win0_2.index t (0 : Fin 2) * 2000 + p.val; omega
    | ⟨1, _⟩ => show win0_2.index t (1 : Fin 2) * 128 + 1 * q.val = q.val; omega
  rw [he, G_apply]
  refine Finset.sum_congr rfl fun k _ => ?_
  have h0 : iblk0 V c 0 t (ix2 p k) = V c main_arg0 (ix2 (⟨win0_2.index t (0 : Fin 2) * 2000 + p.val, hr⟩ : Fin 20000) k) := by
    show V c main_arg0 (((cfg0.win 0).blk t).view.emb (ix2 p k)) = _
    refine congrArg _ (funext fun a => Fin.ext ?_)
    match a with
    | ⟨0, _⟩ => show win0_0.index t (0 : Fin 2) * 2000 + 1 * p.val = win0_2.index t (0 : Fin 2) * 2000 + p.val; omega
    | ⟨1, _⟩ => show win0_0.index t (1 : Fin 2) * 128 + 1 * k.val = k.val; omega
  have h1 : iblk0 V c 1 t (ix2 k q) = V c main_arg2 (ix2 k q) := by
    show V c main_arg2 (((cfg0.win 1).blk t).view.emb (ix2 k q)) = _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega
  rw [h0, h1]

/-- An index of the output array lies in point `t`'s block iff each coordinate lies in the block's range on its axis. -/
theorem mem_blk (t : Fin cfg0.N) (i : S20000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v4).slice (win0_2.rect t)).set ↔ _
  rw [View.set_slice_whole, Rect.mem_set_unit]
  exact Iff.rfl

/-- Row `r` lies in the block of the point whose row block is `r / 2000`: the blocks cover the array. -/
theorem cover (i : S20000x128.Idx) : ∃ t : Fin cfg0.N, (cfg0.win 2).flush t = true ∧ i ∈ ((cfg0.win 2).blk t).view.set := by
  have hi0 : (i 0).val < 20000 := (i 0).isLt
  have hi1 : (i 1).val < 128 := (i 1).isLt
  obtain ⟨t, ht⟩ := idx_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- After the region the output array holds the host product of the two arrays the region found. -/
theorem final (c : Dev nD) : (dat0 V c).arrAt 2 cfg0.N = G (V c main_arg0) (V c main_arg2) :=
  (dat0 V c).arrAt_eq_of_cover 2 (G (V c main_arg0) (V c main_arg2)) (fun t _ => flushed_eq V c t) cover

end Cert.KernelIdeal.DenseOne

end
-- ==== Proof.DenseTwo.lean ====
/-
  The second dense transform, `h · W2`, as the region computes it block by block, is the host's matrix product.
  The region tiles the 20000 rows into ten blocks of 2000. At block `t` the body multiplies rows
  `2000 t … 2000 t + 1999` of the left operand (rounded to bf16, which over the extended reals changes nothing) by the whole
  128 × 64 weight matrix into a zero accumulator, so entry `(p, q)` of what it stores is the sum over `k` of
  `X (2000 t + p, k) · W (k, q)`. That is entry `(2000 t + p, q)` of the host's product of the two whole arrays, and the ten
  blocks cover every row: the array the region leaves IS the host product of the arrays it found.
-/
import proofs.«179062_j68143951118599_1_alg».proof.Proof.Gen.KernelIdeal.Frame
import proofs.«179062_j68143951118599_1_alg».proof.Proof.LibRowOps
import proofs.«179062_j68143951118599_1_alg».proof.Proof.LibHostRows
import Idealize.ShloMosaic.Lib.Pipeline.Value
import Idealize.ShloMosaic.Lib.ValueIdx

set_option maxRecDepth 16384

noncomputable section

namespace Cert.KernelIdeal.DenseTwo

open Idealize.ShloMosaic Idealize.ShloMosaic.TcCoe Idealize.ShloMosaic.ValueIdx Idealize.SL.Sem
open Cert.KernelIdeal Cert.KernelIdeal.Gen
open Idealize.ShloMosaic.Pipeline (Dat Cfg Window)

/-- One block's product at `(p, q)`: the sum over the contracted coordinate of row `p` of the block times column `q`
    of the weights (the rounding of both operands to bf16 is the identity on extended reals). -/
theorem pay_apply (x0 : Vec Ideal S2000x128 .f32) (x1 : Vec Ideal S128x64 .f32) (p : Fin 2000) (q : Fin 64) :
    k2_pay1 (F := Ideal) x0 x1 (ix2 p q) = ∑ k : Fin 128, x0 (ix2 p k) * x1 (ix2 k q) := by
  unfold k2_pay1
  exact (Cert.LibRowOps.matmul_plain_zero_apply 2000 128 64 (shapeCast S2000x128 x0 shapeCasts_S2000x128_S2000x128) x1 p q).trans (by rw [shapeCast_self])

/-- The host's product of the whole `20000 × 128` array by the `128 × 64` weights. -/
abbrev G (X : FVec Ideal S20000x128 .f32) (W : FVec Ideal S128x64 .f32) : FVec Ideal S20000x64 .f32 :=
  Host.dotGeneral (F := Ideal) (DotDims.plain 20000 128 64) none X W

/-- Its entry `(r, q)`: row `r` of `X` against column `q` of `W`. -/
theorem G_apply (X : FVec Ideal S20000x128 .f32) (W : FVec Ideal S128x64 .f32) (r : Fin 20000) (q : Fin 64) :
    G X W (ix2 r q) = ∑ k : Fin 128, X (ix2 r k) * W (ix2 k q) := by
  unfold G
  simp only [Host.dotGeneral]
  exact Cert.LibHostRows.dotGeneral_plain_apply 20000 128 64 _ X W r q

variable (V : (c : Dev nD) → (b : Ref sig .tc) → Buf (Elt Ideal) ((c : Thread nD τ).loc b))

theorem hz : (![0, 0] : Fin 2 → Nat) = fun _ => 0 := funext fun a => by fin_cases a <;> rfl

/-- The block indices over the grid: the left operand's row block is the output's, every column block and the weights'
    block are block 0, and the output's row block is one of the ten. -/
theorem idx_facts : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) ≤ 9 :=
  (by decide +kernel : ∀ t : Fin grid2.N, _)

/-- Each of the ten row blocks is some grid point's. -/
theorem idx_onto : ∀ q0 : Fin 10, ∃ t : Fin cfg2.N, win2_2.index t = ![q0.val, 0] :=
  (by decide +kernel : ∀ q0 : Fin 10, ∃ t : Fin grid2.N, win2_2.index t = ![q0.val, 0])

/-- What point `t` writes back is block `t` of the host product of the arrays the region found. -/
theorem flushed_eq (c : Dev nD) (t : Fin cfg2.N) :
    (dat2 V c).flushed 2 t = ((cfg2.win 2).blk t).view.read (Elt Ideal) (G (V c main_v43) (V c main_arg4)) := by
  show (cfg2.win 2).cut (grid2.coords t) ((dat2 V c).after 2 t) = _
  rw [after2_2]
  unfold out2_2
  rw [View.canon_unit_zero hz]
  simp only [View.ld_unit_zero (S := S2000x128) hz, View.ld_unit_zero (S := S128x64) hz]
  funext j
  show k2_pay1 (iblk2 V c 0 t) (iblk2 V c 1 t) j = G (V c main_v43) (V c main_arg4) (((cfg2.win 2).blk t).view.emb j)
  obtain ⟨p, q, rfl⟩ : ∃ (p : Fin 2000) (q : Fin 64), j = ix2 p q := ⟨j 0, j 1, eq_ix2 j⟩
  refine (pay_apply (iblk2 V c 0 t) (iblk2 V c 1 t) p q).trans ?_
  obtain ⟨e0, e1, e2, e3, e4, e5⟩ := idx_facts t
  have hr : win2_2.index t (0 : Fin 2) * 2000 + p.val < 20000 := by have := p.isLt; omega
  have he : ((cfg2.win 2).blk t).view.emb (ix2 p q) = ix2 (⟨win2_2.index t (0 : Fin 2) * 2000 + p.val, hr⟩ : Fin 20000) q := by
    funext a; apply Fin.ext
    match a with
    | ⟨0, _⟩ => show win2_2.index t (0 : Fin 2) * 2000 + 1 * p.val = win2_2.index t (0 : Fin 2) * 2000 + p.val; omega
    | ⟨1, _⟩ => show win2_2.index t (1 : Fin 2) * 64 + 1 * q.val = q.val; omega
  rw [he, G_apply]
  refine Finset.sum_congr rfl fun k _ => ?_
  have h0 : iblk2 V c 0 t (ix2 p k) = V c main_v43 (ix2 (⟨win2_2.index t (0 : Fin 2) * 2000 + p.val, hr⟩ : Fin 20000) k) := by
    show V c main_v43 (((cfg2.win 0).blk t).view.emb (ix2 p k)) = _
    refine congrArg _ (funext fun a => Fin.ext ?_)
    match a with
    | ⟨0, _⟩ => show win2_0.index t (0 : Fin 2) * 2000 + 1 * p.val = win2_2.index t (0 : Fin 2) * 2000 + p.val; omega
    | ⟨1, _⟩ => show win2_0.index t (1 : Fin 2) * 128 + 1 * k.val = k.val; omega
  have h1 : iblk2 V c 1 t (ix2 k q) = V c main_arg4 (ix2 k q) := by
    show V c main_arg4 (((cfg2.win 1).blk t).view.emb (ix2 k q)) = _
    refine congrArg _ (funext fun a => Fin.ext ?_)
    match a with
    | ⟨0, _⟩ => show win2_1.index t (0 : Fin 2) * 128 + 1 * k.val = k.val; omega
    | ⟨1, _⟩ => show win2_1.index t (1 : Fin 2) * 64 + 1 * q.val = q.val; omega
  rw [h0, h1]

/-- An index of the output array lies in point `t`'s block iff each coordinate lies in the block's range on its axis. -/
theorem mem_blk (t : Fin cfg2.N) (i : S20000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v44).slice (win2_2.rect t)).set ↔ _
  rw [View.set_slice_whole, Rect.mem_set_unit]
  exact Iff.rfl

/-- Row `r` lies in the block of the point whose row block is `r / 2000`: the blocks cover the array. -/
theorem cover (i : S20000x64.Idx) : ∃ t : Fin cfg2.N, (cfg2.win 2).flush t = true ∧ i ∈ ((cfg2.win 2).blk t).view.set := by
  have hi0 : (i 0).val < 20000 := (i 0).isLt
  have hi1 : (i 1).val < 64 := (i 1).isLt
  obtain ⟨t, ht⟩ := idx_onto ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 64 ≤ (i 1).val ∧ (i 1).val < win2_2.index t (1 : Fin 2) * 64 + 64; omega

/-- After the region the output array holds the host product of the two arrays the region found. -/
theorem final (c : Dev nD) : (dat2 V c).arrAt 2 cfg2.N = G (V c main_v43) (V c main_arg4) :=
  (dat2 V c).arrAt_eq_of_cover 2 (G (V c main_v43) (V c main_arg4)) (fun t _ => flushed_eq V c t) cover

end Cert.KernelIdeal.DenseTwo

end
-- ==== Proof.LibColumn.lean ====
/-
  Column forms of the layout operations, read at an index written with the coordinate constructors:
  what a row reduction with `keepdims` needs. A vector `[a]` cast to a column `[a, 1]` reads, at `(i, u)`,
  the vector at `i` (the row-major position of `(i, u)` in `[a, 1]` is `i`); a column `[a, 1]` broadcast
  to `[a, b]` reads, at `(p, c)`, the column at row `p` (the unit axis contributes coordinate `0`).
-/
import Idealize.ShloMosaic.Lib.ValueLayout

namespace Cert.LibColumn

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LayerMath.lean ====
/-
  One graph-convolution layer's closing step, entry by entry over the extended reals: the aggregated messages plus the
  node's own transformed features scaled by its self-loop weight, plus the bias, with or without the rectifier.
  The self-loop weights arrive as a column `[a, 1]` and the bias as a row `[1, b]`; entry `(p, q)` reads the column at row
  `p` and the row at column `q`. The host program spells the same step with broadcasts of a vector: a vector made a
  column and spread over the columns, a vector made a row and spread over the rows, and a zero spread everywhere for the
  rectifier; both spellings are one function.
-/
import proofs.«179062_j68143951118599_1_alg».proof.Proof.LibHostRows
import proofs.«179062_j68143951118599_1_alg».proof.Proof.LibColumn
import Idealize.ShloMosaic.Lib.ValueLayout
import Idealize.ShloMosaic.Lib.ValueIdx

noncomputable section

namespace Cert.LayerMath

open Idealize.ShloMosaic Idealize.ShloMosaic.ValueIdx

variable {a b : ℕ}

/-- `A + H · D + B` entry by entry, the column `D` read at the entry's row and the row `B` at its column. -/
def combine (A H : FVec Ideal ⟨2, ![a, b]⟩ .f32) (D : FVec Ideal ⟨2, ![a, 1]⟩ .f32) (B : FVec Ideal ⟨2, ![1, b]⟩ .f32) :
    FVec Ideal ⟨2, ![a, b]⟩ .f32 :=
  fun i => (A i + H i * D (ix2 (i 0) (0 : Fin 1))) + B (ix2 (0 : Fin 1) (i 1))

/-- The same followed by the rectifier: the larger of the entry and zero. -/
def combineRelu (A H : FVec Ideal ⟨2, ![a, b]⟩ .f32) (D : FVec Ideal ⟨2, ![a, 1]⟩ .f32) (B : FVec Ideal ⟨2, ![1, b]⟩ .f32) :
    FVec Ideal ⟨2, ![a, b]⟩ .f32 :=
  fun i => max (combine A H D B i) (Ideal.ofBits .f32 0x00000000#32)

theorem combine_apply (A H : FVec Ideal ⟨2, ![a, b]⟩ .f32) (D : FVec Ideal ⟨2, ![a, 1]⟩ .f32) (B : FVec Ideal ⟨2, ![1, b]⟩ .f32)
    (p : Fin a) (q : Fin b) :
    combine A H D B (ix2 p q) = (A (ix2 p q) + H (ix2 p q) * D (ix2 p (0 : Fin 1))) + B (ix2 (0 : Fin 1) q) := rfl

theorem combineRelu_apply (A H : FVec Ideal ⟨2, ![a, b]⟩ .f32) (D : FVec Ideal ⟨2, ![a, 1]⟩ .f32) (B : FVec Ideal ⟨2, ![1, b]⟩ .f32)
    (p : Fin a) (q : Fin b) :
    combineRelu A H D B (ix2 p q)
      = max ((A (ix2 p q) + H (ix2 p q) * D (ix2 p (0 : Fin 1))) + B (ix2 (0 : Fin 1) q)) (Ideal.ofBits .f32 0x00000000#32) := rfl

/-- The host's spelling without the rectifier: the self-loop weights `dd` and the bias `bias` as vectors, each made a
    column or a row by a broadcast and then spread over the matrix. It is `combine` at the vectors cast to a column and
    a row. -/
theorem host_combine_eq (A H : FVec Ideal ⟨2, ![a, b]⟩ .f32) (dd : FVec Ideal ⟨1, ![a]⟩ .f32) (bias : FVec Ideal ⟨1, ![b]⟩ .f32)
    (h1 : (⟨1, ![a]⟩ : Shape).BroadcastsInDim ⟨2, ![a, 1]⟩ ![0]) (h2 : (⟨2, ![a, 1]⟩ : Shape).BroadcastsInDim ⟨2, ![a, b]⟩ ![0, 1])
    (h3 : (⟨1, ![b]⟩ : Shape).BroadcastsInDim ⟨2, ![1, b]⟩ ![1]) (h4 : (⟨2, ![1, b]⟩ : Shape).BroadcastsInDim ⟨2, ![a, b]⟩ ![0, 1])
    (c1 : (⟨1, ![a]⟩ : Shape).ShapeCasts ⟨2, ![a, 1]⟩) (c2 : (⟨1, ![b]⟩ : Shape).ShapeCasts ⟨2, ![1, b]⟩) :
    addf (addf A (mulf H (broadcastInDim ⟨2, ![a, b]⟩ ![0, 1] h2 (broadcastInDim ⟨2, ![a, 1]⟩ ![0] h1 dd))))
        (broadcastInDim ⟨2, ![a, b]⟩ ![0, 1] h4 (broadcastInDim ⟨2, ![1, b]⟩ ![1] h3 bias))
      = combine A H (shapeCast ⟨2, ![a, 1]⟩ dd c1) (shapeCast ⟨2, ![1, b]⟩ bias c2) := by
  funext i
  obtain ⟨p, q, rfl⟩ : ∃ (p : Fin a) (q : Fin b), i = ix2 p q := ⟨i 0, i 1, eq_ix2 i⟩
  rw [combine_apply, addf_apply, addf_apply, mulf_apply, Cert.LibHostRows.bcast_col_apply, Cert.LibHostRows.bcast_vec_col_apply,
    Cert.LibHostRows.bcast_row_apply, Cert.LibHostRows.bcast_vec_row_apply, Cert.LibColumn.shapeCast_a_a1_apply, shapeCast_a_1a_apply]

/-- The host's spelling with the rectifier: the maximum with a zero spread over the matrix. -/
theorem host_combineRelu_eq (A H : FVec Ideal ⟨2, ![a, b]⟩ .f32) (dd : FVec Ideal ⟨1, ![a]⟩ .f32) (bias : FVec Ideal ⟨1, ![b]⟩ .f32)
    (h1 : (⟨1, ![a]⟩ : Shape).BroadcastsInDim ⟨2, ![a, 1]⟩ ![0]) (h2 : (⟨2, ![a, 1]⟩ : Shape).BroadcastsInDim ⟨2, ![a, b]⟩ ![0, 1])
    (h3 : (⟨1, ![b]⟩ : Shape).BroadcastsInDim ⟨2, ![1, b]⟩ ![1]) (h4 : (⟨2, ![1, b]⟩ : Shape).BroadcastsInDim ⟨2, ![a, b]⟩ ![0, 1])
    (h5 : (⟨0, ![]⟩ : Shape).BroadcastsInDim ⟨2, ![a, b]⟩ ![])
    (c1 : (⟨1, ![a]⟩ : Shape).ShapeCasts ⟨2, ![a, 1]⟩) (c2 : (⟨1, ![b]⟩ : Shape).ShapeCasts ⟨2, ![1, b]⟩) :
    maximumf (addf (addf A (mulf H (broadcastInDim ⟨2, ![a, b]⟩ ![0, 1] h2 (broadcastInDim ⟨2, ![a, 1]⟩ ![0] h1 dd))))
        (broadcastInDim ⟨2, ![a, b]⟩ ![0, 1] h4 (broadcastInDim ⟨2, ![1, b]⟩ ![1] h3 bias)))
        (broadcastInDim ⟨2, ![a, b]⟩ ![] h5 (constant (F := Ideal) ⟨0, ![]⟩ .f32 0x00000000#32))
      = combineRelu A H (shapeCast ⟨2, ![a, 1]⟩ dd c1) (shapeCast ⟨2, ![1, b]⟩ bias c2) := by
  rw [host_combine_eq A H dd bias h1 h2 h3 h4 c1 c2]
  funext i
  rw [maximumf_apply, Cert.LibHostRows.bcast_scalar_apply]
  rfl

end Cert.LayerMath

end
-- ==== Proof.CombineOne.lean ====
/-
  The closing step of the first layer, `relu (agg + hW · dinv² + b)`, as the region computes it block by block.
  The region tiles the 20000 rows into ten blocks of 2000. At block `t` the body reads rows `2000 t … 2000 t + 1999` of the
  aggregated messages, of the transformed features and of the self-loop column, and the whole bias row; entry `(p, q)` of
  what it stores is the larger of `agg (r, q) + hW (r, q) · dinv² (r) + b (q)` and zero, at the array row
  `r = 2000 t + p`. That is entry `(r, q)` of the layer's closing step of the whole arrays, and the ten blocks cover every
  row: the array the region leaves IS that step applied to the arrays it found.
-/
import proofs.«179062_j68143951118599_1_alg».proof.Proof.Gen.KernelIdeal.Frame
import proofs.«179062_j68143951118599_1_alg».proof.Proof.LayerMath
import Idealize.ShloMosaic.Lib.Pipeline.Value
import Idealize.ShloMosaic.Lib.ValueIdx
import Idealize.ShloMosaic.Lib.ValueLayout

set_option maxRecDepth 16384

noncomputable section

namespace Cert.KernelIdeal.CombineOne

open Idealize.ShloMosaic Idealize.ShloMosaic.TcCoe Idealize.ShloMosaic.ValueIdx Idealize.SL.Sem
open Cert.KernelIdeal Cert.KernelIdeal.Gen
open Idealize.ShloMosaic.Pipeline (Dat Cfg Window)

/-- One block's result at `(p, q)`: the block's column read at row `p`, its bias row at column `q` (the casts of a block
    to its own shape are the identity; a column spread over the columns reads its row, a row spread over the rows its column). -/
theorem pay_apply (x0 x1 : Vec Ideal S2000x128 .f32) (x2 : Vec Ideal S2000x1 .f32) (x3 : Vec Ideal S1x128 .f32) (p : Fin 2000) (q : Fin 128) :
    k1_pay1 (F := Ideal) x0 x1 x2 x3 (ix2 p q)
      = max ((x0 (ix2 p q) + x1 (ix2 p q) * x2 (ix2 p (0 : Fin 1))) + x3 (ix2 (0 : Fin 1) q)) (Ideal.ofBits .f32 0x00000000#32) := by
  unfold k1_pay1
  simp only [shapeCast_self]
  rw [maximumf_apply, addf_apply, addf_apply, mulf_apply, Cert.LibColumn.broadcastTo_a1_ab_apply, broadcastTo_1b_ab_apply]
  rfl

variable (V : (c : Dev nD) → (b : Ref sig .tc) → Buf (Elt Ideal) ((c : Thread nD τ).loc b))

theorem hz : (![0, 0] : Fin 2 → Nat) = fun _ => 0 := funext fun a => by fin_cases a <;> rfl

/-- The block indices over the grid: the three row-tiled inputs' row block is the output's, every column block and the
    bias row's block are block 0, and the output's row block is one of the ten. -/
theorem idx_facts : ∀ t : Fin cfg1.N, win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = win1_4.index t (0 : Fin 2) ∧ win1_2.index t (1 : Fin 2) = 0
    ∧ win1_3.index t (0 : Fin 2) = 0 ∧ win1_3.index t (1 : Fin 2) = 0
    ∧ win1_4.index t (1 : Fin 2) = 0 ∧ win1_4.index t (0 : Fin 2) ≤ 9 :=
  (by decide +kernel : ∀ t : Fin grid1.N, _)

/-- Each of the ten row blocks is some grid point's. -/
theorem idx_onto : ∀ q0 : Fin 10, ∃ t : Fin cfg1.N, win1_4.index t = ![q0.val, 0] :=
  (by decide +kernel : ∀ q0 : Fin 10, ∃ t : Fin grid1.N, win1_4.index t = ![q0.val, 0])

/-- What point `t` writes back is block `t` of the layer's closing step of the arrays the region found. -/
theorem flushed_eq (c : Dev nD) (t : Fin cfg1.N) :
    (dat1 V c).flushed 4 t = ((cfg1.win 4).blk t).view.read (Elt Ideal)
      (Cert.LayerMath.combineRelu (a := 20000) (b := 128) (V c main_v39) (V c main_v4) (V c main_v41) (V c main_v42)) := by
  show (cfg1.win 4).cut (grid1.coords t) ((dat1 V c).after 4 t) = _
  rw [after1_4]
  unfold out1_4
  rw [View.canon_unit_zero hz]
  simp only [View.ld_unit_zero (S := S2000x128) hz, View.ld_unit_zero (S := S2000x1) hz, View.ld_unit_zero (S := S1x128) hz]
  funext j
  show k1_pay1 (iblk1 V c 0 t) (iblk1 V c 1 t) (iblk1 V c 2 t) (iblk1 V c 3 t) j
    = Cert.LayerMath.combineRelu (a := 20000) (b := 128) (V c main_v39) (V c main_v4) (V c main_v41) (V c main_v42) (((cfg1.win 4).blk t).view.emb j)
  obtain ⟨p, q, rfl⟩ : ∃ (p : Fin 2000) (q : Fin 128), j = ix2 p q := ⟨j 0, j 1, eq_ix2 j⟩
  refine (pay_apply (iblk1 V c 0 t) (iblk1 V c 1 t) (iblk1 V c 2 t) (iblk1 V c 3 t) p q).trans ?_
  obtain ⟨e0, e1, e2, e3, e4, e5, e6, e7, e8, e9⟩ := idx_facts t
  have hr : win1_4.index t (0 : Fin 2) * 2000 + p.val < 20000 := by have := p.isLt; omega
  have he : ((cfg1.win 4).blk t).view.emb (ix2 p q) = ix2 (⟨win1_4.index t (0 : Fin 2) * 2000 + p.val, hr⟩ : Fin 20000) q := by
    funext a; apply Fin.ext
    match a with
    | ⟨0, _⟩ => show win1_4.index t (0 : Fin 2) * 2000 + 1 * p.val = win1_4.index t (0 : Fin 2) * 2000 + p.val; omega
    | ⟨1, _⟩ => show win1_4.index t (1 : Fin 2) * 128 + 1 * q.val = q.val; omega
  have h0 : iblk1 V c 0 t (ix2 p q) = V c main_v39 (ix2 (⟨win1_4.index t (0 : Fin 2) * 2000 + p.val, hr⟩ : Fin 20000) q) := by
    show V c main_v39 (((cfg1.win 0).blk t).view.emb (ix2 p q)) = _
    refine congrArg _ (funext fun a => Fin.ext ?_)
    match a with
    | ⟨0, _⟩ => show win1_0.index t (0 : Fin 2) * 2000 + 1 * p.val = win1_4.index t (0 : Fin 2) * 2000 + p.val; omega
    | ⟨1, _⟩ => show win1_0.index t (1 : Fin 2) * 128 + 1 * q.val = q.val; omega
  have h1 : iblk1 V c 1 t (ix2 p q) = V c main_v4 (ix2 (⟨win1_4.index t (0 : Fin 2) * 2000 + p.val, hr⟩ : Fin 20000) q) := by
    show V c main_v4 (((cfg1.win 1).blk t).view.emb (ix2 p q)) = _
    refine congrArg _ (funext fun a => Fin.ext ?_)
    match a with
    | ⟨0, _⟩ => show win1_1.index t (0 : Fin 2) * 2000 + 1 * p.val = win1_4.index t (0 : Fin 2) * 2000 + p.val; omega
    | ⟨1, _⟩ => show win1_1.index t (1 : Fin 2) * 128 + 1 * q.val = q.val; omega
  have h2 : iblk1 V c 2 t (ix2 p (0 : Fin 1)) = V c main_v41 (ix2 (⟨win1_4.index t (0 : Fin 2) * 2000 + p.val, hr⟩ : Fin 20000) (0 : Fin 1)) := by
    show V c main_v41 (((cfg1.win 2).blk t).view.emb (ix2 p (0 : Fin 1))) = _
    refine congrArg _ (funext fun a => Fin.ext ?_)
    match a with
    | ⟨0, _⟩ => show win1_2.index t (0 : Fin 2) * 2000 + 1 * p.val = win1_4.index t (0 : Fin 2) * 2000 + p.val; omega
    | ⟨1, _⟩ => show win1_2.index t (1 : Fin 2) * 1 + 1 * 0 = 0; omega
  have h3 : iblk1 V c 3 t (ix2 (0 : Fin 1) q) = V c main_v42 (ix2 (0 : Fin 1) q) := by
    show V c main_v42 (((cfg1.win 3).blk t).view.emb (ix2 (0 : Fin 1) q)) = _
    refine congrArg _ (funext fun a => Fin.ext ?_)
    match a with
    | ⟨0, _⟩ => show win1_3.index t (0 : Fin 2) * 1 + 1 * 0 = 0; omega
    | ⟨1, _⟩ => show win1_3.index t (1 : Fin 2) * 128 + 1 * q.val = q.val; omega
  rw [he, Cert.LayerMath.combineRelu_apply, h0, h1, h2, h3]

/-- An index of the output array lies in point `t`'s block iff each coordinate lies in the block's range on its axis. -/
theorem mem_blk (t : Fin cfg1.N) (i : S20000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v43).slice (win1_4.rect t)).set ↔ _
  rw [View.set_slice_whole, Rect.mem_set_unit]
  exact Iff.rfl

/-- Row `r` lies in the block of the point whose row block is `r / 2000`: the blocks cover the array. -/
theorem cover (i : S20000x128.Idx) : ∃ t : Fin cfg1.N, (cfg1.win 4).flush t = true ∧ i ∈ ((cfg1.win 4).blk t).view.set := by
  have hi0 : (i 0).val < 20000 := (i 0).isLt
  have hi1 : (i 1).val < 128 := (i 1).isLt
  obtain ⟨t, ht⟩ := idx_onto ⟨(i 0).val / 2000, by omega⟩
  have q0 : win1_4.index t (0 : Fin 2) = (i 0).val / 2000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 128 ≤ (i 1).val ∧ (i 1).val < win1_4.index t (1 : Fin 2) * 128 + 128; omega

/-- After the region the output array holds the layer's closing step of the four arrays the region found. -/
theorem final (c : Dev nD) : (dat1 V c).arrAt 4 cfg1.N
    = Cert.LayerMath.combineRelu (a := 20000) (b := 128) (V c main_v39) (V c main_v4) (V c main_v41) (V c main_v42) :=
  (dat1 V c).arrAt_eq_of_cover 4 _ (fun t _ => flushed_eq V c t) cover

end Cert.KernelIdeal.CombineOne

end
-- ==== Proof.CombineTwo.lean ====
/-
  The closing step of the second layer, `agg + hW · dinv² + b`, as the region computes it block by block.
  The region tiles the 20000 rows into ten blocks of 2000. At block `t` the body reads rows `2000 t … 2000 t + 1999` of the
  aggregated messages, of the transformed features and of the self-loop column, and the whole bias row; entry `(p, q)` of
  what it stores is `agg (r, q) + hW (r, q) · dinv² (r) + b (q)`, at the array row
  `r = 2000 t + p`. That is entry `(r, q)` of the layer's closing step of the whole arrays, and the ten blocks cover every
  row: the array the region leaves IS that step applied to the arrays it found.
-/
import proofs.«179062_j68143951118599_1_alg».proof.Proof.Gen.KernelIdeal.Frame
import proofs.«179062_j68143951118599_1_alg».proof.Proof.LayerMath
import Idealize.ShloMosaic.Lib.Pipeline.Value
import Idealize.ShloMosaic.Lib.ValueIdx
import Idealize.ShloMosaic.Lib.ValueLayout

set_option maxRecDepth 16384

noncomputable section

namespace Cert.KernelIdeal.CombineTwo

open Idealize.ShloMosaic Idealize.ShloMosaic.TcCoe Idealize.ShloMosaic.ValueIdx Idealize.SL.Sem
open Cert.KernelIdeal Cert.KernelIdeal.Gen
open Idealize.ShloMosaic.Pipeline (Dat Cfg Window)

/-- One block's result at `(p, q)`: the block's column read at row `p`, its bias row at column `q` (the casts of a block
    to its own shape are the identity; a column spread over the columns reads its row, a row spread over the rows its column). -/
theorem pay_apply (x0 x1 : Vec Ideal S2000x64 .f32) (x2 : Vec Ideal S2000x1 .f32) (x3 : Vec Ideal S1x64 .f32) (p : Fin 2000) (q : Fin 64) :
    k3_pay1 (F := Ideal) x0 x1 x2 x3 (ix2 p q)
      = (x0 (ix2 p q) + x1 (ix2 p q) * x2 (ix2 p (0 : Fin 1))) + x3 (ix2 (0 : Fin 1) q) := by
  unfold k3_pay1
  simp only [shapeCast_self]
  rw [addf_apply, addf_apply, mulf_apply, Cert.LibColumn.broadcastTo_a1_ab_apply, broadcastTo_1b_ab_apply]

variable (V : (c : Dev nD) → (b : Ref sig .tc) → Buf (Elt Ideal) ((c : Thread nD τ).loc b))

theorem hz : (![0, 0] : Fin 2 → Nat) = fun _ => 0 := funext fun a => by fin_cases a <;> rfl

/-- The block indices over the grid: the three row-tiled inputs' row block is the output's, every column block and the
    bias row's block are block 0, and the output's row block is one of the ten. -/
theorem idx_facts : ∀ t : Fin cfg3.N, win3_0.index t (0 : Fin 2) = win3_4.index t (0 : Fin 2) ∧ win3_0.index t (1 : Fin 2) = 0
    ∧ win3_1.index t (0 : Fin 2) = win3_4.index t (0 : Fin 2) ∧ win3_1.index t (1 : Fin 2) = 0
    ∧ win3_2.index t (0 : Fin 2) = win3_4.index t (0 : Fin 2) ∧ win3_2.index t (1 : Fin 2) = 0
    ∧ win3_3.index t (0 : Fin 2) = 0 ∧ win3_3.index t (1 : Fin 2) = 0
    ∧ win3_4.index t (1 : Fin 2) = 0 ∧ win3_4.index t (0 : Fin 2) ≤ 9 :=
  (by decide +kernel : ∀ t : Fin grid3.N, _)

/-- Each of the ten row blocks is some grid point's. -/
theorem idx_onto : ∀ q0 : Fin 10, ∃ t : Fin cfg3.N, win3_4.index t = ![q0.val, 0] :=
  (by decide +kernel : ∀ q0 : Fin 10, ∃ t : Fin grid3.N, win3_4.index t = ![q0.val, 0])

/-- What point `t` writes back is block `t` of the layer's closing step of the arrays the region found. -/
theorem flushed_eq (c : Dev nD) (t : Fin cfg3.N) :
    (dat3 V c).flushed 4 t = ((cfg3.win 4).blk t).view.read (Elt Ideal)
      (Cert.LayerMath.combine (a := 20000) (b := 64) (V c main_v79) (V c main_v44) (V c main_v81) (V c main_v82)) := by
  show (cfg3.win 4).cut (grid3.coords t) ((dat3 V c).after 4 t) = _
  rw [after3_4]
  unfold out3_4
  rw [View.canon_unit_zero hz]
  simp only [View.ld_unit_zero (S := S2000x64) hz, View.ld_unit_zero (S := S2000x1) hz, View.ld_unit_zero (S := S1x64) hz]
  funext j
  show k3_pay1 (iblk3 V c 0 t) (iblk3 V c 1 t) (iblk3 V c 2 t) (iblk3 V c 3 t) j
    = Cert.LayerMath.combine (a := 20000) (b := 64) (V c main_v79) (V c main_v44) (V c main_v81) (V c main_v82) (((cfg3.win 4).blk t).view.emb j)
  obtain ⟨p, q, rfl⟩ : ∃ (p : Fin 2000) (q : Fin 64), j = ix2 p q := ⟨j 0, j 1, eq_ix2 j⟩
  refine (pay_apply (iblk3 V c 0 t) (iblk3 V c 1 t) (iblk3 V c 2 t) (iblk3 V c 3 t) p q).trans ?_
  obtain ⟨e0, e1, e2, e3, e4, e5, e6, e7, e8, e9⟩ := idx_facts t
  have hr : win3_4.index t (0 : Fin 2) * 2000 + p.val < 20000 := by have := p.isLt; omega
  have he : ((cfg3.win 4).blk t).view.emb (ix2 p q) = ix2 (⟨win3_4.index t (0 : Fin 2) * 2000 + p.val, hr⟩ : Fin 20000) q := by
    funext a; apply Fin.ext
    match a with
    | ⟨0, _⟩ => show win3_4.index t (0 : Fin 2) * 2000 + 1 * p.val = win3_4.index t (0 : Fin 2) * 2000 + p.val; omega
    | ⟨1, _⟩ => show win3_4.index t (1 : Fin 2) * 64 + 1 * q.val = q.val; omega
  have h0 : iblk3 V c 0 t (ix2 p q) = V c main_v79 (ix2 (⟨win3_4.index t (0 : Fin 2) * 2000 + p.val, hr⟩ : Fin 20000) q) := by
    show V c main_v79 (((cfg3.win 0).blk t).view.emb (ix2 p q)) = _
    refine congrArg _ (funext fun a => Fin.ext ?_)
    match a with
    | ⟨0, _⟩ => show win3_0.index t (0 : Fin 2) * 2000 + 1 * p.val = win3_4.index t (0 : Fin 2) * 2000 + p.val; omega
    | ⟨1, _⟩ => show win3_0.index t (1 : Fin 2) * 64 + 1 * q.val = q.val; omega
  have h1 : iblk3 V c 1 t (ix2 p q) = V c main_v44 (ix2 (⟨win3_4.index t (0 : Fin 2) * 2000 + p.val, hr⟩ : Fin 20000) q) := by
    show V c main_v44 (((cfg3.win 1).blk t).view.emb (ix2 p q)) = _
    refine congrArg _ (funext fun a => Fin.ext ?_)
    match a with
    | ⟨0, _⟩ => show win3_1.index t (0 : Fin 2) * 2000 + 1 * p.val = win3_4.index t (0 : Fin 2) * 2000 + p.val; omega
    | ⟨1, _⟩ => show win3_1.index t (1 : Fin 2) * 64 + 1 * q.val = q.val; omega
  have h2 : iblk3 V c 2 t (ix2 p (0 : Fin 1)) = V c main_v81 (ix2 (⟨win3_4.index t (0 : Fin 2) * 2000 + p.val, hr⟩ : Fin 20000) (0 : Fin 1)) := by
    show V c main_v81 (((cfg3.win 2).blk t).view.emb (ix2 p (0 : Fin 1))) = _
    refine congrArg _ (funext fun a => Fin.ext ?_)
    match a with
    | ⟨0, _⟩ => show win3_2.index t (0 : Fin 2) * 2000 + 1 * p.val = win3_4.index t (0 : Fin 2) * 2000 + p.val; omega
    | ⟨1, _⟩ => show win3_2.index t (1 : Fin 2) * 1 + 1 * 0 = 0; omega
  have h3 : iblk3 V c 3 t (ix2 (0 : Fin 1) q) = V c main_v82 (ix2 (0 : Fin 1) q) := by
    show V c main_v82 (((cfg3.win 3).blk t).view.emb (ix2 (0 : Fin 1) q)) = _
    refine congrArg _ (funext fun a => Fin.ext ?_)
    match a with
    | ⟨0, _⟩ => show win3_3.index t (0 : Fin 2) * 1 + 1 * 0 = 0; omega
    | ⟨1, _⟩ => show win3_3.index t (1 : Fin 2) * 64 + 1 * q.val = q.val; omega
  rw [he, Cert.LayerMath.combine_apply, h0, h1, h2, h3]

/-- An index of the output array lies in point `t`'s block iff each coordinate lies in the block's range on its axis. -/
theorem mem_blk (t : Fin cfg3.N) (i : S20000x64.Idx) :
    i ∈ ((cfg3.win 4).blk t).view.set ↔ ∀ a : Fin 2, win3_4.index t a * S2000x64.size a ≤ (i a).val ∧ (i a).val < win3_4.index t a * S2000x64.size a + S2000x64.size a := by
  show i ∈ ((View.whole main_v83).slice (win3_4.rect t)).set ↔ _
  rw [View.set_slice_whole, Rect.mem_set_unit]
  exact Iff.rfl

/-- Row `r` lies in the block of the point whose row block is `r / 2000`: the blocks cover the array. -/
theorem cover (i : S20000x64.Idx) : ∃ t : Fin cfg3.N, (cfg3.win 4).flush t = true ∧ i ∈ ((cfg3.win 4).blk t).view.set := by
  have hi0 : (i 0).val < 20000 := (i 0).isLt
  have hi1 : (i 1).val < 64 := (i 1).isLt
  obtain ⟨t, ht⟩ := idx_onto ⟨(i 0).val / 2000, by omega⟩
  have q0 : win3_4.index t (0 : Fin 2) = (i 0).val / 2000 := congrFun ht 0
  have q1 : win3_4.index t (1 : Fin 2) = 0 := congrFun ht 1
  refine ⟨t, flush3_4 t, ?_⟩
  rw [mem_blk]
  intro a
  match a with
  | ⟨0, _⟩ => show win3_4.index t (0 : Fin 2) * 2000 ≤ (i 0).val ∧ (i 0).val < win3_4.index t (0 : Fin 2) * 2000 + 2000; omega
  | ⟨1, _⟩ => show win3_4.index t (1 : Fin 2) * 64 ≤ (i 1).val ∧ (i 1).val < win3_4.index t (1 : Fin 2) * 64 + 64; omega

/-- After the region the output array holds the layer's closing step of the four arrays the region found. -/
theorem final (c : Dev nD) : (dat3 V c).arrAt 4 cfg3.N
    = Cert.LayerMath.combine (a := 20000) (b := 64) (V c main_v79) (V c main_v44) (V c main_v81) (V c main_v82) :=
  (dat3 V c).arrAt_eq_of_cover 4 _ (fun t _ => flushed_eq V c t) cover

end Cert.KernelIdeal.CombineTwo

end
-- ==== Proof.Stages.lean ====
/-
  The graph side of the two-layer network, as functions of arrays: everything the host program computes between the
  kernel regions. From the edge table `e` (row 0 the source node of each edge, row 1 its destination): the in-degree
  of every node plus one (the self loop), its inverse square root `dinv`; the weight of an edge, `dinv (src) · dinv (dst)`;
  the aggregation of a feature matrix `h`, the sum into each destination row of the source rows scaled by the edge
  weights; the self-loop weights `dinv²` as a column and a bias as a row. A node index is read modulo wrap-around: a
  negative one has the node count added. Then the network: two layers, each a dense transform, the aggregation, and the
  closing step `agg + hW · dinv² + b`, the first followed by the rectifier.
-/
import proofs.«179062_j68143951118599_1_alg».proof.Proof.Gen.KernelIdeal
import proofs.«179062_j68143951118599_1_alg».proof.Proof.LayerMath
import Idealize.ShloMosaic.PureOps.Ideal

noncomputable section

namespace Cert.KernelIdeal.Stages

open Cert.KernelIdeal Idealize.ShloMosaic
open Cert.KernelIdeal.Facts₀ Cert.KernelIdeal.Facts

variable {F : FTy → Type} [FloatOps F]

/-- The edges' source nodes: row 0 of the edge table. -/
def src (e : (⟨S2x640000, .i32⟩ : BufTy).Contents (Elt F)) : (⟨S640000, .i32⟩ : BufTy).Contents (Elt F) :=
  shapeCast _ (extractStridedSlice S1x640000 ![0, 0] e slices_S2x640000_S1x640000_0_0) shapeCasts_S1x640000_S640000

/-- The edges' destination nodes: row 1 of the edge table. -/
def dst (e : (⟨S2x640000, .i32⟩ : BufTy).Contents (Elt F)) : (⟨S640000, .i32⟩ : BufTy).Contents (Elt F) :=
  shapeCast _ (extractStridedSlice S1x640000 ![1, 0] e slices_S2x640000_S1x640000_1_0) shapeCasts_S1x640000_S640000

/-- A node index with a negative value wrapped around by the node count. -/
def wrap (s : (⟨S640000, .i32⟩ : BufTy).Contents (Elt F)) : (⟨S640000, .i32⟩ : BufTy).Contents (Elt F) :=
  select (cmpi .slt s (broadcastInDim S640000 ![] bcast_S_S640000 (constantI S_ 32 0#32)))
    (addi s (broadcastInDim S640000 ![] bcast_S_S640000 (constantI S_ 32 20000#32))) s

/-- `(1 + in-degree)^(-1/2)` of every node: a one scattered onto each edge's destination, plus one, inverse square root. -/
def dinv (d : (⟨S640000, .i32⟩ : BufTy).Contents (Elt F)) : (⟨S20000, .f32⟩ : BufTy).Contents (Elt F) :=
  Host.rsqrt (addf (Host.scatterAdd scatter_S20000_S640000x1_S640000_n_0_0_1
      (broadcastInDim S20000 ![] bcast_S_S20000 (constant S_ .f32 0x00000000#32))
      (broadcastInDim S640000x1 ![0] bcast_S640000_S640000x1_0 d)
      (broadcastInDim S640000 ![] bcast_S_S640000 (constant S_ .f32 0x3F800000#32)))
    (broadcastInDim S20000 ![] bcast_S_S20000 (constant S_ .f32 0x3F800000#32)))

/-- The weight of every edge: `dinv` at its source times `dinv` at its destination. -/
def edgeW (s d : (⟨S640000, .i32⟩ : BufTy).Contents (Elt F)) : (⟨S640000, .f32⟩ : BufTy).Contents (Elt F) :=
  mulf (Host.gather gather_S20000_S640000x1_S640000_n_0_n_n_0_1_1 (dinv d) (broadcastInDim S640000x1 ![0] bcast_S640000_S640000x1_0 (wrap s)))
    (Host.gather gather_S20000_S640000x1_S640000_n_0_n_n_0_1_1 (dinv d) (broadcastInDim S640000x1 ![0] bcast_S640000_S640000x1_0 (wrap d)))

/-- The aggregation of a 128-column feature matrix: into each destination row, the sum of the source rows times the edge weights. -/
def agg128 (h : (⟨S20000x128, .f32⟩ : BufTy).Contents (Elt F)) (s d : (⟨S640000, .i32⟩ : BufTy).Contents (Elt F)) :
    (⟨S20000x128, .f32⟩ : BufTy).Contents (Elt F) :=
  Host.scatterAdd scatter_S20000x128_S640000x1_S640000x128_1_0_0_1
    (broadcastInDim S20000x128 ![] bcast_S_S20000x128 (constant S_ .f32 0x00000000#32))
    (broadcastInDim S640000x1 ![0] bcast_S640000_S640000x1_0 d)
    (mulf (Host.gather gather_S20000x128_S640000x1_S640000x128_1_0_n_n_0_1_1128 h (broadcastInDim S640000x1 ![0] bcast_S640000_S640000x1_0 (wrap s)))
      (broadcastInDim S640000x128 ![0, 1] bcast_S640000x1_S640000x128_0_1 (broadcastInDim S640000x1 ![0] bcast_S640000_S640000x1_0 (edgeW s d))))

/-- The aggregation of a 64-column feature matrix. -/
def agg64 (h : (⟨S20000x64, .f32⟩ : BufTy).Contents (Elt F)) (s d : (⟨S640000, .i32⟩ : BufTy).Contents (Elt F)) :
    (⟨S20000x64, .f32⟩ : BufTy).Contents (Elt F) :=
  Host.scatterAdd scatter_S20000x64_S640000x1_S640000x64_1_0_0_1
    (broadcastInDim S20000x64 ![] bcast_S_S20000x64 (constant S_ .f32 0x00000000#32))
    (broadcastInDim S640000x1 ![0] bcast_S640000_S640000x1_0 d)
    (mulf (Host.gather gather_S20000x64_S640000x1_S640000x64_1_0_n_n_0_1_164 h (broadcastInDim S640000x1 ![0] bcast_S640000_S640000x1_0 (wrap s)))
      (broadcastInDim S640000x64 ![0, 1] bcast_S640000x1_S640000x64_0_1 (broadcastInDim S640000x1 ![0] bcast_S640000_S640000x1_0 (edgeW s d))))

/-- The self-loop weights `dinv²` as a column. -/
def selfCol (d : (⟨S640000, .i32⟩ : BufTy).Contents (Elt F)) : (⟨S20000x1, .f32⟩ : BufTy).Contents (Elt F) :=
  shapeCast _ (mulf (dinv d) (dinv d)) shapeCasts_S20000_S20000x1

/-- The first layer's bias as a row. -/
def biasRow128 (b : (⟨S128, .f32⟩ : BufTy).Contents (Elt F)) : (⟨S1x128, .f32⟩ : BufTy).Contents (Elt F) :=
  shapeCast _ b shapeCasts_S128_S1x128

/-- The second layer's bias as a row. -/
def biasRow64 (b : (⟨S64, .f32⟩ : BufTy).Contents (Elt F)) : (⟨S1x64, .f32⟩ : BufTy).Contents (Elt F) :=
  shapeCast _ b shapeCasts_S64_S1x64

/-- The host's product of a `20000 × 128` array by `128 × 128` weights. -/
abbrev dense128 (X : FVec Ideal S20000x128 .f32) (W : FVec Ideal S128x128 .f32) : FVec Ideal S20000x128 .f32 :=
  Host.dotGeneral (F := Ideal) (DotDims.plain 20000 128 128) none X W

/-- The host's product of a `20000 × 128` array by `128 × 64` weights. -/
abbrev dense64 (X : FVec Ideal S20000x128 .f32) (W : FVec Ideal S128x64 .f32) : FVec Ideal S20000x64 .f32 :=
  Host.dotGeneral (F := Ideal) (DotDims.plain 20000 128 64) none X W

/-- The hidden features: the first layer with the rectifier. -/
def hidden (x : FVec Ideal S20000x128 .f32) (e : (⟨S2x640000, .i32⟩ : BufTy).Contents (Elt Ideal)) (w1 : FVec Ideal S128x128 .f32)
    (b1 : FVec Ideal S128 .f32) : FVec Ideal S20000x128 .f32 :=
  Cert.LayerMath.combineRelu (a := 20000) (b := 128) (agg128 (F := Ideal) (dense128 x w1) (src e) (dst e)) (dense128 x w1)
    (selfCol (F := Ideal) (dst e)) (biasRow128 (F := Ideal) b1)

/-- The network's output: the second layer, without the rectifier, of the hidden features. -/
def output (x : FVec Ideal S20000x128 .f32) (e : (⟨S2x640000, .i32⟩ : BufTy).Contents (Elt Ideal)) (w1 : FVec Ideal S128x128 .f32)
    (b1 : FVec Ideal S128 .f32) (w2 : FVec Ideal S128x64 .f32) (b2 : FVec Ideal S64 .f32) : FVec Ideal S20000x64 .f32 :=
  Cert.LayerMath.combine (a := 20000) (b := 64) (agg64 (F := Ideal) (dense64 (hidden x e w1 b1) w2) (src e) (dst e))
    (dense64 (hidden x e w1 b1) w2) (selfCol (F := Ideal) (dst e)) (biasRow64 (F := Ideal) b2)

end Cert.KernelIdeal.Stages

end
-- ==== Proof.Fold.lean ====
/-
  The kernel program's result array, read back through the run. The run leaves, at each boundary between a stretch of
  host operations and a kernel region, every buffer at known contents: a host stretch applies its operations to what the
  boundary before it held, a region leaves its output array at the whole-array function of its input arrays and every
  other buffer as it found it. Walking from the last boundary back to the launch, the result array is the network's
  output (the two layers of `Stages`) of the six argument arrays.
-/
import proofs.«179062_j68143951118599_1_alg».proof.Proof.Gen.KernelIdeal.Frame
import proofs.«179062_j68143951118599_1_alg».proof.Proof.DenseOne
import proofs.«179062_j68143951118599_1_alg».proof.Proof.DenseTwo
import proofs.«179062_j68143951118599_1_alg».proof.Proof.CombineOne
import proofs.«179062_j68143951118599_1_alg».proof.Proof.CombineTwo
import proofs.«179062_j68143951118599_1_alg».proof.Proof.Stages
import Idealize.ShloMosaic.Lib.StableHlo.Run

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## Before the first region: the arguments as launched, the edge table's two rows -/

theorem W1_main_arg0 (c : Dev nD) : W1 m ρ c (Proc.devRef .tc main_arg0) = m ((c : Thread nD τ).loc main_arg0) := by
  show StableHlo.after hostOps0 (W0 m ρ c) (Proc.devRef .tc main_arg0) = _
  dsimp only [hostOps0]
  after_results
theorem W1_main_arg1 (c : Dev nD) : W1 m ρ c (Proc.devRef .tc main_arg1) = m ((c : Thread nD τ).loc main_arg1) := by
  show StableHlo.after hostOps0 (W0 m ρ c) (Proc.devRef .tc main_arg1) = _
  dsimp only [hostOps0]
  after_results
theorem W1_main_arg2 (c : Dev nD) : W1 m ρ c (Proc.devRef .tc main_arg2) = m ((c : Thread nD τ).loc main_arg2) := by
  show StableHlo.after hostOps0 (W0 m ρ c) (Proc.devRef .tc main_arg2) = _
  dsimp only [hostOps0]
  after_results
theorem W1_main_arg3 (c : Dev nD) : W1 m ρ c (Proc.devRef .tc main_arg3) = m ((c : Thread nD τ).loc main_arg3) := by
  show StableHlo.after hostOps0 (W0 m ρ c) (Proc.devRef .tc main_arg3) = _
  dsimp only [hostOps0]
  after_results
theorem W1_main_arg4 (c : Dev nD) : W1 m ρ c (Proc.devRef .tc main_arg4) = m ((c : Thread nD τ).loc main_arg4) := by
  show StableHlo.after hostOps0 (W0 m ρ c) (Proc.devRef .tc main_arg4) = _
  dsimp only [hostOps0]
  after_results
theorem W1_main_arg5 (c : Dev nD) : W1 m ρ c (Proc.devRef .tc main_arg5) = m ((c : Thread nD τ).loc main_arg5) := by
  show StableHlo.after hostOps0 (W0 m ρ c) (Proc.devRef .tc main_arg5) = _
  dsimp only [hostOps0]
  after_results

theorem W1_src (c : Dev nD) : W1 m ρ c (Proc.devRef .tc main_v1) = Stages.src (m ((c : Thread nD τ).loc main_arg1)) := by
  show StableHlo.after hostOps0 (W0 m ρ c) (Proc.devRef .tc main_v1) = _
  dsimp only [hostOps0]
  after_results
  rfl

theorem W1_dst (c : Dev nD) : W1 m ρ c (Proc.devRef .tc main_v3) = Stages.dst (m ((c : Thread nD τ).loc main_arg1)) := by
  show StableHlo.after hostOps0 (W0 m ρ c) (Proc.devRef .tc main_v3) = _
  dsimp only [hostOps0]
  after_results
  rfl

/-! ## After the first dense transform -/

theorem W2_hw (c : Dev nD) : W2 m ρ c (Proc.devRef .tc main_v4)
    = Stages.dense128 (m ((c : Thread nD τ).loc main_arg0)) (m ((c : Thread nD τ).loc main_arg2)) :=
  (W2_arr m ρ c 2).trans ((DenseOne.final (V1 m ρ) c).trans (congrArg₂ DenseOne.G (W1_main_arg0 m ρ c) (W1_main_arg2 m ρ c)))

theorem W2_keep_main_v1 (c : Dev nD) : W2 m ρ c (Proc.devRef .tc main_v1) = W1 m ρ c (Proc.devRef .tc main_v1) :=
  W2_of_ne m ρ c main_v1 (by decide)
theorem W2_keep_main_v3 (c : Dev nD) : W2 m ρ c (Proc.devRef .tc main_v3) = W1 m ρ c (Proc.devRef .tc main_v3) :=
  W2_of_ne m ρ c main_v3 (by decide)
theorem W2_keep_main_arg3 (c : Dev nD) : W2 m ρ c (Proc.devRef .tc main_arg3) = W1 m ρ c (Proc.devRef .tc main_arg3) :=
  W2_of_ne m ρ c main_arg3 (by decide)
theorem W2_keep_main_arg4 (c : Dev nD) : W2 m ρ c (Proc.devRef .tc main_arg4) = W1 m ρ c (Proc.devRef .tc main_arg4) :=
  W2_of_ne m ρ c main_arg4 (by decide)
theorem W2_keep_main_arg5 (c : Dev nD) : W2 m ρ c (Proc.devRef .tc main_arg5) = W1 m ρ c (Proc.devRef .tc main_arg5) :=
  W2_of_ne m ρ c main_arg5 (by decide)

/-! ## After the first layer's graph stretch -/

theorem W3_agg (c : Dev nD) : W3 m ρ c (Proc.devRef .tc main_v39)
    = Stages.agg128 (F := Ideal) (W2 m ρ c (Proc.devRef .tc main_v4)) (W2 m ρ c (Proc.devRef .tc main_v1)) (W2 m ρ c (Proc.devRef .tc main_v3)) := by
  show StableHlo.after hostOps1 (W2 m ρ c) (Proc.devRef .tc main_v39) = _
  dsimp only [hostOps1]
  after_results_simp
  rfl

theorem W3_col (c : Dev nD) : W3 m ρ c (Proc.devRef .tc main_v41) = Stages.selfCol (F := Ideal) (W2 m ρ c (Proc.devRef .tc main_v3)) := by
  show StableHlo.after hostOps1 (W2 m ρ c) (Proc.devRef .tc main_v41) = _
  dsimp only [hostOps1]
  after_results_simp
  rfl

theorem W3_row (c : Dev nD) : W3 m ρ c (Proc.devRef .tc main_v42) = Stages.biasRow128 (F := Ideal) (W2 m ρ c (Proc.devRef .tc main_arg3)) := by
  show StableHlo.after hostOps1 (W2 m ρ c) (Proc.devRef .tc main_v42) = _
  dsimp only [hostOps1]
  after_results_simp
  rfl

theorem W3_keep_main_v4 (c : Dev nD) : W3 m ρ c (Proc.devRef .tc main_v4) = W2 m ρ c (Proc.devRef .tc main_v4) := by
  show StableHlo.after hostOps1 (W2 m ρ c) (Proc.devRef .tc main_v4) = _
  dsimp only [hostOps1]
  after_results_simp
theorem W3_keep_main_v1 (c : Dev nD) : W3 m ρ c (Proc.devRef .tc main_v1) = W2 m ρ c (Proc.devRef .tc main_v1) := by
  show StableHlo.after hostOps1 (W2 m ρ c) (Proc.devRef .tc main_v1) = _
  dsimp only [hostOps1]
  after_results_simp
theorem W3_keep_main_v3 (c : Dev nD) : W3 m ρ c (Proc.devRef .tc main_v3) = W2 m ρ c (Proc.devRef .tc main_v3) := by
  show StableHlo.after hostOps1 (W2 m ρ c) (Proc.devRef .tc main_v3) = _
  dsimp only [hostOps1]
  after_results_simp
theorem W3_keep_main_arg4 (c : Dev nD) : W3 m ρ c (Proc.devRef .tc main_arg4) = W2 m ρ c (Proc.devRef .tc main_arg4) := by
  show StableHlo.after hostOps1 (W2 m ρ c) (Proc.devRef .tc main_arg4) = _
  dsimp only [hostOps1]
  after_results_simp
theorem W3_keep_main_arg5 (c : Dev nD) : W3 m ρ c (Proc.devRef .tc main_arg5) = W2 m ρ c (Proc.devRef .tc main_arg5) := by
  show StableHlo.after hostOps1 (W2 m ρ c) (Proc.devRef .tc main_arg5) = _
  dsimp only [hostOps1]
  after_results_simp

/-! ## After the first layer's closing step -/

theorem W4_h (c : Dev nD) : W4 m ρ c (Proc.devRef .tc main_v43)
    = Cert.LayerMath.combineRelu (a := 20000) (b := 128) (W3 m ρ c (Proc.devRef .tc main_v39)) (W3 m ρ c (Proc.devRef .tc main_v4))
        (W3 m ρ c (Proc.devRef .tc main_v41)) (W3 m ρ c (Proc.devRef .tc main_v42)) :=
  (W4_arr m ρ c 4).trans (CombineOne.final (V3 m ρ) c)

theorem W4_keep_main_v1 (c : Dev nD) : W4 m ρ c (Proc.devRef .tc main_v1) = W3 m ρ c (Proc.devRef .tc main_v1) :=
  W4_of_ne m ρ c main_v1 (by decide)
theorem W4_keep_main_v3 (c : Dev nD) : W4 m ρ c (Proc.devRef .tc main_v3) = W3 m ρ c (Proc.devRef .tc main_v3) :=
  W4_of_ne m ρ c main_v3 (by decide)
theorem W4_keep_main_arg4 (c : Dev nD) : W4 m ρ c (Proc.devRef .tc main_arg4) = W3 m ρ c (Proc.devRef .tc main_arg4) :=
  W4_of_ne m ρ c main_arg4 (by decide)
theorem W4_keep_main_arg5 (c : Dev nD) : W4 m ρ c (Proc.devRef .tc main_arg5) = W3 m ρ c (Proc.devRef .tc main_arg5) :=
  W4_of_ne m ρ c main_arg5 (by decide)

/-! ## After the second dense transform -/

theorem W5_hw (c : Dev nD) : W5 m ρ c (Proc.devRef .tc main_v44)
    = Stages.dense64 (W4 m ρ c (Proc.devRef .tc main_v43)) (W4 m ρ c (Proc.devRef .tc main_arg4)) :=
  (W5_arr m ρ c 2).trans (DenseTwo.final (V4 m ρ) c)

theorem W5_keep_main_v1 (c : Dev nD) : W5 m ρ c (Proc.devRef .tc main_v1) = W4 m ρ c (Proc.devRef .tc main_v1) :=
  W5_of_ne m ρ c main_v1 (by decide)
theorem W5_keep_main_v3 (c : Dev nD) : W5 m ρ c (Proc.devRef .tc main_v3) = W4 m ρ c (Proc.devRef .tc main_v3) :=
  W5_of_ne m ρ c main_v3 (by decide)
theorem W5_keep_main_arg5 (c : Dev nD) : W5 m ρ c (Proc.devRef .tc main_arg5) = W4 m ρ c (Proc.devRef .tc main_arg5) :=
  W5_of_ne m ρ c main_arg5 (by decide)

/-! ## After the second layer's graph stretch -/

theorem W6_agg (c : Dev nD) : W6 m ρ c (Proc.devRef .tc main_v79)
    = Stages.agg64 (F := Ideal) (W5 m ρ c (Proc.devRef .tc main_v44)) (W5 m ρ c (Proc.devRef .tc main_v1)) (W5 m ρ c (Proc.devRef .tc main_v3)) := by
  show StableHlo.after hostOps3 (W5 m ρ c) (Proc.devRef .tc main_v79) = _
  dsimp only [hostOps3]
  after_results_simp
  rfl

theorem W6_col (c : Dev nD) : W6 m ρ c (Proc.devRef .tc main_v81) = Stages.selfCol (F := Ideal) (W5 m ρ c (Proc.devRef .tc main_v3)) := by
  show StableHlo.after hostOps3 (W5 m ρ c) (Proc.devRef .tc main_v81) = _
  dsimp only [hostOps3]
  after_results_simp
  rfl

theorem W6_row (c : Dev nD) : W6 m ρ c (Proc.devRef .tc main_v82) = Stages.biasRow64 (F := Ideal) (W5 m ρ c (Proc.devRef .tc main_arg5)) := by
  show StableHlo.after hostOps3 (W5 m ρ c) (Proc.devRef .tc main_v82) = _
  dsimp only [hostOps3]
  after_results_simp
  rfl

theorem W6_keep_main_v44 (c : Dev nD) : W6 m ρ c (Proc.devRef .tc main_v44) = W5 m ρ c (Proc.devRef .tc main_v44) := by
  show StableHlo.after hostOps3 (W5 m ρ c) (Proc.devRef .tc main_v44) = _
  dsimp only [hostOps3]
  after_results_simp

/-! ## After the second layer's closing step: the result -/

theorem W7_out (c : Dev nD) : W7 m ρ c (Proc.devRef .tc main_v83)
    = Cert.LayerMath.combine (a := 20000) (b := 64) (W6 m ρ c (Proc.devRef .tc main_v79)) (W6 m ρ c (Proc.devRef .tc main_v44))
        (W6 m ρ c (Proc.devRef .tc main_v81)) (W6 m ρ c (Proc.devRef .tc main_v82)) :=
  (W7_arr m ρ c 4).trans (CombineTwo.final (V6 m ρ) c)

/-! ## The walk back to the launch -/

/-- The source and destination rows reach every later boundary unchanged. -/
theorem src_at5 (c : Dev nD) : W5 m ρ c (Proc.devRef .tc main_v1) = Stages.src (m ((c : Thread nD τ).loc main_arg1)) := by
  rw [W5_keep_main_v1, W4_keep_main_v1, W3_keep_main_v1, W2_keep_main_v1, W1_src]
theorem dst_at5 (c : Dev nD) : W5 m ρ c (Proc.devRef .tc main_v3) = Stages.dst (m ((c : Thread nD τ).loc main_arg1)) := by
  rw [W5_keep_main_v3, W4_keep_main_v3, W3_keep_main_v3, W2_keep_main_v3, W1_dst]
theorem src_at2 (c : Dev nD) : W2 m ρ c (Proc.devRef .tc main_v1) = Stages.src (m ((c : Thread nD τ).loc main_arg1)) := by
  rw [W2_keep_main_v1, W1_src]
theorem dst_at2 (c : Dev nD) : W2 m ρ c (Proc.devRef .tc main_v3) = Stages.dst (m ((c : Thread nD τ).loc main_arg1)) := by
  rw [W2_keep_main_v3, W1_dst]

/-- The hidden features, where the second dense transform finds them. -/
theorem hidden_at4 (c : Dev nD) : W4 m ρ c (Proc.devRef .tc main_v43)
    = Stages.hidden (m ((c : Thread nD τ).loc main_arg0)) (m ((c : Thread nD τ).loc main_arg1)) (m ((c : Thread nD τ).loc main_arg2))
        (m ((c : Thread nD τ).loc main_arg3)) := by
  rw [W4_h, W3_agg, W3_keep_main_v4, W3_col, W3_row, W2_hw, src_at2, dst_at2, W2_keep_main_arg3, W1_main_arg3]
  rfl

/-- The result array after the run is the network's output of the argument arrays. -/
theorem result_eq (c : Dev nD) : W7 m ρ c (Proc.devRef .tc main_v83)
    = Stages.output (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  rw [W7_out, W6_agg, W6_keep_main_v44, W6_col, W6_row, W5_hw, src_at5, dst_at5, hidden_at4,
    W4_keep_main_arg4, W3_keep_main_arg4, W2_keep_main_arg4, W1_main_arg4,
    W5_keep_main_arg5, W4_keep_main_arg5, W3_keep_main_arg5, W2_keep_main_arg5, W1_main_arg5]
  rfl

end Cert.KernelIdeal.Fold

end
-- ==== Proof.Bridge.lean ====
/-
  The network's output as the kernel program computes it (`Stages.output`) is the reference program's result, stage by
  stage: the dense transforms are the reference's matrix products; the degree, edge-weight and aggregation stretches are
  the reference's own operations on the same edge table; and each layer's closing step, which the reference spells with
  broadcasts of the self-loop weights and of the bias, is the entrywise `agg + hW · dinv² + b` (with the rectifier in the
  first layer) of `LayerMath`.
-/
import proofs.«179062_j68143951118599_1_alg».proof.Proof.Stages
import proofs.«179062_j68143951118599_1_alg».proof.Proof.LayerMath
import proofs.«179062_j68143951118599_1_alg».proof.Proof.Gen.ReferenceIdeal.Read

set_option maxRecDepth 16384

noncomputable section

namespace Cert.Bridge

open Idealize.ShloMosaic
open Cert.ReferenceIdeal Cert.ReferenceIdeal.Read
open Cert.KernelIdeal (Stages.src Stages.dst Stages.dinv Stages.agg128 Stages.agg64 Stages.selfCol Stages.biasRow128 Stages.biasRow64
  Stages.dense128 Stages.dense64 Stages.hidden Stages.output)

variable (x0 : (⟨S20000x128, .f32⟩ : BufTy).Contents (Elt Ideal)) (x1 : (⟨S2x640000, .i32⟩ : BufTy).Contents (Elt Ideal))
  (x2 : (⟨S128x128, .f32⟩ : BufTy).Contents (Elt Ideal)) (x3 : (⟨S128, .f32⟩ : BufTy).Contents (Elt Ideal))
  (x4 : (⟨S128x64, .f32⟩ : BufTy).Contents (Elt Ideal)) (x5 : (⟨S64, .f32⟩ : BufTy).Contents (Elt Ideal))

/-- The first dense transform is the reference's first matrix product. -/
theorem dense1_eq : Stages.dense128 x0 x2 = val_main_v4 (F := Ideal) x0 x2 := rfl

/-- The inverse square roots of the degrees are the reference's. -/
theorem dinv_eq : Stages.dinv (F := Ideal) (Stages.dst x1) = val_main_v11 (F := Ideal) x1 := rfl

/-- The first aggregation, of the reference's product, is the reference's first scatter-add. -/
theorem agg1_eq : Stages.agg128 (F := Ideal) (val_main_v4 (F := Ideal) x0 x2) (Stages.src x1) (Stages.dst x1)
    = val_main_v39 (F := Ideal) x0 x1 x2 := rfl

/-- The hidden features are the reference's rectified first layer. -/
theorem hidden_eq : Stages.hidden x0 x1 x2 x3 = val_main_v48 (F := Ideal) x0 x1 x2 x3 :=
  (show Stages.hidden x0 x1 x2 x3
      = Cert.LayerMath.combineRelu (a := 20000) (b := 128) (val_main_v39 (F := Ideal) x0 x1 x2) (val_main_v4 (F := Ideal) x0 x2)
          (shapeCast ⟨2, ![20000, 1]⟩ (val_main_v40 (F := Ideal) x1) Cert.KernelIdeal.Facts₀.shapeCasts_S20000_S20000x1)
          (shapeCast ⟨2, ![1, 128]⟩ x3 Cert.KernelIdeal.Facts₀.shapeCasts_S128_S1x128) from rfl).trans
    ((Cert.LayerMath.host_combineRelu_eq (a := 20000) (b := 128) (val_main_v39 (F := Ideal) x0 x1 x2) (val_main_v4 (F := Ideal) x0 x2)
        (val_main_v40 (F := Ideal) x1) x3 Facts₀.bcast_S20000_S20000x1_0 Facts₀.bcast_S20000x1_S20000x128_0_1
        Facts₀.bcast_S128_S1x128_1 Facts₀.bcast_S1x128_S20000x128_0_1 Facts₀.bcast_S_S20000x128 _ _).symm.trans
      (show _ = val_main_v48 (F := Ideal) x0 x1 x2 x3 from rfl))

/-- The second dense transform, of the reference's hidden features, is the reference's second matrix product. -/
theorem dense2_eq : Stages.dense64 (val_main_v48 (F := Ideal) x0 x1 x2 x3) x4 = val_main_v49 (F := Ideal) x0 x1 x2 x3 x4 := rfl

/-- The second aggregation is the reference's second scatter-add. -/
theorem agg2_eq : Stages.agg64 (F := Ideal) (val_main_v49 (F := Ideal) x0 x1 x2 x3 x4) (Stages.src x1) (Stages.dst x1)
    = val_main_v84 (F := Ideal) x0 x1 x2 x3 x4 := rfl

/-- The network's output is the reference's result. -/
theorem output_eq : Stages.output x0 x1 x2 x3 x4 x5 = val_main_v92 (F := Ideal) x0 x1 x2 x3 x4 x5 := by
  unfold Stages.output
  rw [hidden_eq]
  exact (show Cert.LayerMath.combine (a := 20000) (b := 64)
        (Stages.agg64 (F := Ideal) (Stages.dense64 (val_main_v48 (F := Ideal) x0 x1 x2 x3) x4) (Stages.src x1) (Stages.dst x1))
        (Stages.dense64 (val_main_v48 (F := Ideal) x0 x1 x2 x3) x4) (Stages.selfCol (F := Ideal) (Stages.dst x1)) (Stages.biasRow64 (F := Ideal) x5)
      = Cert.LayerMath.combine (a := 20000) (b := 64) (val_main_v84 (F := Ideal) x0 x1 x2 x3 x4) (val_main_v49 (F := Ideal) x0 x1 x2 x3 x4)
          (shapeCast ⟨2, ![20000, 1]⟩ (val_main_v85 (F := Ideal) x1) Cert.KernelIdeal.Facts₀.shapeCasts_S20000_S20000x1)
          (shapeCast ⟨2, ![1, 64]⟩ x5 Cert.KernelIdeal.Facts₀.shapeCasts_S64_S1x64) from rfl).trans
    ((Cert.LayerMath.host_combine_eq (a := 20000) (b := 64) (val_main_v84 (F := Ideal) x0 x1 x2 x3 x4) (val_main_v49 (F := Ideal) x0 x1 x2 x3 x4)
        (val_main_v85 (F := Ideal) x1) x5 Facts₀.bcast_S20000_S20000x1_0 Facts₀.bcast_S20000x1_S20000x64_0_1
        Facts₀.bcast_S64_S1x64_1 Facts₀.bcast_S1x64_S20000x64_0_1 _ _).symm.trans
      (show _ = val_main_v92 (F := Ideal) x0 x1 x2 x3 x4 x5 from rfl))

end Cert.Bridge

end
-- ==== Proof.lean ====
/-
  The two-layer graph convolution of the kernel program against the reference's, over the extended reals.
  Both programs compute, layer by layer, `D^(-1/2) (A + I) D^(-1/2) (h W) + b`: a dense transform `h W`, the degree-normalised
  sum of the neighbours' rows, the node's own row scaled by its self-loop weight, the bias; the rectifier after the first
  layer. The kernel program does the dense transforms and the closing steps in four row-tiled regions and the graph side
  on the host; the reference does everything on the host. Over the extended reals the regions' results are the host
  operations' (a product tiled by rows is the product; the closing step is entrywise; the rounding of the matrix
  operands to bf16 is the identity), and the graph side is the same operations on the same edge table, so the two
  results are one function of the six arguments. The law that joins the two sides is only that a sum over the contracted
  axis does not depend on how the rows are tiled; no distributivity or cancellation is used, so the finiteness of the
  inputs is never opened.
  The three frames: the two kernel programs' from the generated frame of their seven segments; the reference's from its
  run. The idealization rewrote nothing, so `preserves` is trivial.
-/
import proofs.«179062_j68143951118599_1_alg».proof.Defs
import proofs.«179062_j68143951118599_1_alg».proof.Proof.Gen.Kernel
import proofs.«179062_j68143951118599_1_alg».proof.Proof.Gen.Kernel.Skeleton
import proofs.«179062_j68143951118599_1_alg».proof.Proof.Gen.Kernel.Launch
import proofs.«179062_j68143951118599_1_alg».proof.Proof.Gen.Kernel.Points
import proofs.«179062_j68143951118599_1_alg».proof.Proof.Gen.Kernel.Frame
import proofs.«179062_j68143951118599_1_alg».proof.Proof.Gen.KernelIdeal
import proofs.«179062_j68143951118599_1_alg».proof.Proof.Gen.KernelIdeal.Skeleton
import proofs.«179062_j68143951118599_1_alg».proof.Proof.Gen.KernelIdeal.Launch
import proofs.«179062_j68143951118599_1_alg».proof.Proof.Gen.KernelIdeal.Points
import proofs.«179062_j68143951118599_1_alg».proof.Proof.Gen.KernelIdeal.Frame
import proofs.«179062_j68143951118599_1_alg».proof.Proof.Gen.ReferenceIdeal
import proofs.«179062_j68143951118599_1_alg».proof.Proof.Gen.Pre_finite_inputs
import proofs.«179062_j68143951118599_1_alg».proof.Proof.Gen.ReferenceIdeal.Run
import proofs.«179062_j68143951118599_1_alg».proof.Proof.Gen.ReferenceIdeal.Read
import proofs.«179062_j68143951118599_1_alg».proof.Proof.ResultRun
import proofs.«179062_j68143951118599_1_alg».proof.Proof.Fold
import proofs.«179062_j68143951118599_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference runs and keeps its arguments: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The kernel program's run ends with the result array at the network's output of the argument arrays. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v83)
          = Cert.KernelIdeal.Stages.output (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
              (m ((c.tc : Thread Cert.KernelIdeal.nD Cert.KernelIdeal.τ).loc Cert.KernelIdeal.main_arg4))
              (m ((c.tc : Thread Cert.KernelIdeal.nD Cert.KernelIdeal.τ).loc Cert.KernelIdeal.main_arg5))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run Cert.KernelIdeal.defs _ _).mono (fun r h c => ⟨(h c).1.trans (Cert.KernelIdeal.Fold.result_eq m ρ c), (h c).2⟩)
    (Cert.KernelIdeal.Gen.run_named (F := Ideal) m ρ)

/-- From memories agreeing on the arguments both programs end with the network's output of those arguments. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v92_eq, (hagree c).1, (hagree c).2.1, (hagree c).2.2.1, (hagree c).2.2.2.1,
    (hagree c).2.2.2.2.1, (hagree c).2.2.2.2.2]
  exact (Cert.Bridge.output_eq _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
